-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S2048x32 : Shape := ⟨2, ![2048, 32]⟩
abbrev S2048x128 : Shape := ⟨2, ![2048, 128]⟩
abbrev S1024x32 : Shape := ⟨2, ![1024, 32]⟩
abbrev S2048x1 : Shape := ⟨2, ![2048, 1]⟩
abbrev S2048x33 : Shape := ⟨2, ![2048, 33]⟩
abbrev S33x256 : Shape := ⟨2, ![33, 256]⟩
abbrev S2048x256 : Shape := ⟨2, ![2048, 256]⟩
abbrev S256x32 : Shape := ⟨2, ![256, 32]⟩
abbrev S1024x1 : Shape := ⟨2, ![1024, 1]⟩
abbrev S1024x65 : Shape := ⟨2, ![1024, 65]⟩
abbrev S65x256 : Shape := ⟨2, ![65, 256]⟩
abbrev S1024x256 : Shape := ⟨2, ![1024, 256]⟩
abbrev S256x128 : Shape := ⟨2, ![256, 128]⟩
abbrev S1024x128 : Shape := ⟨2, ![1024, 128]⟩

abbrev nBuf : Space → Nat
  | .hbm => 21
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S1x4096, .f32⟩
  | .hbm, ⟨11, _⟩ => ⟨S33x4096, .f32⟩
  | .hbm, ⟨12, _⟩ => ⟨S33x4096, .bf16⟩
  | .hbm, ⟨13, _⟩ => ⟨S1x4096, .f32⟩
  | .hbm, ⟨14, _⟩ => ⟨S65x4096, .f32⟩
  | .hbm, ⟨15, _⟩ => ⟨S65x4096, .bf16⟩
  | .hbm, ⟨16, _⟩ => ⟨S4096x32, .bf16⟩
  | .hbm, ⟨17, _⟩ => ⟨S1x32, .f32⟩
  | .hbm, ⟨18, _⟩ => ⟨S4096x128, .bf16⟩
  | .hbm, ⟨19, _⟩ => ⟨S1x128, .f32⟩
  | .hbm, ⟨20, _⟩ => ⟨S16384x128, .f32⟩
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S33x4096, .bf16⟩
  | .local _ .vmem, ⟨5, _⟩ => ⟨S4096x32, .bf16⟩
  | .local _ .vmem, ⟨6, _⟩ => ⟨S1x32, .f32⟩
  | .local _ .vmem, ⟨7, _⟩ => ⟨S65x4096, .bf16⟩
  | .local _ .vmem, ⟨8, _⟩ => ⟨S4096x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S4096_S1x4096_1 : S4096.BroadcastsInDim S1x4096 (![1] : Fin 1 → Fin S1x4096.rank)
  concatenates_S32x4096_S1x4096_S33x4096_d0 : Shape.Concatenates [S32x4096, S1x4096] S33x4096 0
  bitsLt_bf16_f32 : FTy.bits .bf16 < FTy.bits .f32
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S2048x32_S1024x32_0_0 : ∀ a, (![0, 0] : Fin 2 → Nat) a + S1024x32.size a ≤ S2048x32.size a
  h_S1024x32 : 0 < S1024x32.numel
  concatenates_S1024x32_S1024x32_S2048x32_d0 : Shape.Concatenates [S1024x32, S1024x32] S2048x32 0
  concatenates_S2048x32_S2048x1_S2048x33_d1 : Shape.Concatenates [S2048x32, S2048x1] S2048x33 1
  inb_S2048x32_S1024x32_1024_0 : ∀ a, (![1024, 0] : Fin 2 → Nat) a + S1024x32.size a ≤ S2048x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x256_0_0 : ∀ a, (![0, 0] : Fin 2 → Nat) a + S33x256.size a ≤ S33x4096.size a
  h_S33x256 : 0 < S33x256.numel
  shapeCasts_S33x256_S33x256 : S33x256.ShapeCasts S33x256
  inb_S4096x32_S256x32_0_0 : ∀ a, (![0, 0] : Fin 2 → Nat) a + S256x32.size a ≤ S4096x32.size a
  h_S256x32 : 0 < S256x32.numel
  shapeCasts_S256x32_S256x32 : S256x32.ShapeCasts S256x32
  broadcasts_S1x32_S2048x32 : S1x32.Broadcasts S2048x32
  inb_S33x4096_S33x256_0_256 : ∀ a, (![0, 256] : Fin 2 → Nat) a + S33x256.size a ≤ S33x4096.size a
  inb_S4096x32_S256x32_256_0 : ∀ a, (![256, 0] : Fin 2 → Nat) a + S256x32.size a ≤ S4096x32.size a
  inb_S33x4096_S33x256_0_512 : ∀ a, (![0, 512] : Fin 2 → Nat) a + S33x256.size a ≤ S33x4096.size a
  inb_S4096x32_S256x32_512_0 : ∀ a, (![512, 0] : Fin 2 → Nat) a + S256x32.size a ≤ S4096x32.size a
  inb_S33x4096_S33x256_0_768 : ∀ a, (![0, 768] : Fin 2 → Nat) a + S33x256.size a ≤ S33x4096.size a
  inb_S4096x32_S256x32_768_0 : ∀ a, (![768, 0] : Fin 2 → Nat) a + S256x32.size a ≤ S4096x32.size a
  inb_S33x4096_S33x256_0_1024 : ∀ a, (![0, 1024] : Fin 2 → Nat) a + S33x256.size a ≤ S33x4096.size a
  inb_S4096x32_S256x32_1024_0 : ∀ a, (![1024, 0] : Fin 2 → Nat) a + S256x32.size a ≤ S4096x32.size a
  inb_S33x4096_S33x256_0_1280 : ∀ a, (![0, 1280] : Fin 2 → Nat) a + S33x256.size a ≤ S33x4096.size a
  inb_S4096x32_S256x32_1280_0 : ∀ a, (![1280, 0] : Fin 2 → Nat) a + S256x32.size a ≤ S4096x32.size a
  inb_S33x4096_S33x256_0_1536 : ∀ a, (![0, 1536] : Fin 2 → Nat) a + S33x256.size a ≤ S33x4096.size a
  inb_S4096x32_S256x32_1536_0 : ∀ a, (![1536, 0] : Fin 2 → Nat) a + S256x32.size a ≤ S4096x32.size a
  inb_S33x4096_S33x256_0_1792 : ∀ a, (![0, 1792] : Fin 2 → Nat) a + S33x256.size a ≤ S33x4096.size a
  inb_S4096x32_S256x32_1792_0 : ∀ a, (![1792, 0] : Fin 2 → Nat) a + S256x32.size a ≤ S4096x32.size a
  inb_S33x4096_S33x256_0_2048 : ∀ a, (![0, 2048] : Fin 2 → Nat) a + S33x256.size a ≤ S33x4096.size a
  inb_S4096x32_S256x32_2048_0 : ∀ a, (![2048, 0] : Fin 2 → Nat) a + S256x32.size a ≤ S4096x32.size a
  inb_S33x4096_S33x256_0_2304 : ∀ a, (![0, 2304] : Fin 2 → Nat) a + S33x256.size a ≤ S33x4096.size a
  inb_S4096x32_S256x32_2304_0 : ∀ a, (![2304, 0] : Fin 2 → Nat) a + S256x32.size a ≤ S4096x32.size a
  inb_S33x4096_S33x256_0_2560 : ∀ a, (![0, 2560] : Fin 2 → Nat) a + S33x256.size a ≤ S33x4096.size a
  inb_S4096x32_S256x32_2560_0 : ∀ a, (![2560, 0] : Fin 2 → Nat) a + S256x32.size a ≤ S4096x32.size a
  inb_S33x4096_S33x256_0_2816 : ∀ a, (![0, 2816] : Fin 2 → Nat) a + S33x256.size a ≤ S33x4096.size a
  inb_S4096x32_S256x32_2816_0 : ∀ a, (![2816, 0] : Fin 2 → Nat) a + S256x32.size a ≤ S4096x32.size a
  inb_S33x4096_S33x256_0_3072 : ∀ a, (![0, 3072] : Fin 2 → Nat) a + S33x256.size a ≤ S33x4096.size a
  inb_S4096x32_S256x32_3072_0 : ∀ a, (![3072, 0] : Fin 2 → Nat) a + S256x32.size a ≤ S4096x32.size a
  inb_S33x4096_S33x256_0_3328 : ∀ a, (![0, 3328] : Fin 2 → Nat) a + S33x256.size a ≤ S33x4096.size a
  inb_S4096x32_S256x32_3328_0 : ∀ a, (![3328, 0] : Fin 2 → Nat) a + S256x32.size a ≤ S4096x32.size a
  inb_S33x4096_S33x256_0_3584 : ∀ a, (![0, 3584] : Fin 2 → Nat) a + S33x256.size a ≤ S33x4096.size a
  inb_S4096x32_S256x32_3584_0 : ∀ a, (![3584, 0] : Fin 2 → Nat) a + S256x32.size a ≤ S4096x32.size a
  inb_S33x4096_S33x256_0_3840 : ∀ a, (![0, 3840] : Fin 2 → Nat) a + S33x256.size a ≤ S33x4096.size a
  inb_S4096x32_S256x32_3840_0 : ∀ a, (![3840, 0] : Fin 2 → Nat) a + S256x32.size a ≤ S4096x32.size a
  slices_S2048x32_o0_0_S1024x32 : S2048x32.Slices ![0, 0] S1024x32
  slices_S2048x32_o1024_0_S1024x32 : S2048x32.Slices ![1024, 0] S1024x32
  concatenates_S1024x32_S1024x32_S1024x1_S1024x65_d1 : Shape.Concatenates [S1024x32, S1024x32, S1024x1] S1024x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x256_0_0 : ∀ a, (![0, 0] : Fin 2 → Nat) a + S65x256.size a ≤ S65x4096.size a
  h_S65x256 : 0 < S65x256.numel
  shapeCasts_S65x256_S65x256 : S65x256.ShapeCasts S65x256
  inb_S4096x128_S256x128_0_0 : ∀ a, (![0, 0] : Fin 2 → Nat) a + S256x128.size a ≤ S4096x128.size a
  h_S256x128 : 0 < S256x128.numel
  shapeCasts_S256x128_S256x128 : S256x128.ShapeCasts S256x128
  broadcasts_S1x128_S1024x128 : S1x128.Broadcasts S1024x128
  inb_S65x4096_S65x256_0_256 : ∀ a, (![0, 256] : Fin 2 → Nat) a + S65x256.size a ≤ S65x4096.size a
  inb_S4096x128_S256x128_256_0 : ∀ a, (![256, 0] : Fin 2 → Nat) a + S256x128.size a ≤ S4096x128.size a
  inb_S65x4096_S65x256_0_512 : ∀ a, (![0, 512] : Fin 2 → Nat) a + S65x256.size a ≤ S65x4096.size a
  inb_S4096x128_S256x128_512_0 : ∀ a, (![512, 0] : Fin 2 → Nat) a + S256x128.size a ≤ S4096x128.size a
  inb_S65x4096_S65x256_0_768 : ∀ a, (![0, 768] : Fin 2 → Nat) a + S65x256.size a ≤ S65x4096.size a
  inb_S4096x128_S256x128_768_0 : ∀ a, (![768, 0] : Fin 2 → Nat) a + S256x128.size a ≤ S4096x128.size a
  inb_S65x4096_S65x256_0_1024 : ∀ a, (![0, 1024] : Fin 2 → Nat) a + S65x256.size a ≤ S65x4096.size a
  inb_S4096x128_S256x128_1024_0 : ∀ a, (![1024, 0] : Fin 2 → Nat) a + S256x128.size a ≤ S4096x128.size a
  inb_S65x4096_S65x256_0_1280 : ∀ a, (![0, 1280] : Fin 2 → Nat) a + S65x256.size a ≤ S65x4096.size a
  inb_S4096x128_S256x128_1280_0 : ∀ a, (![1280, 0] : Fin 2 → Nat) a + S256x128.size a ≤ S4096x128.size a
  inb_S65x4096_S65x256_0_1536 : ∀ a, (![0, 1536] : Fin 2 → Nat) a + S65x256.size a ≤ S65x4096.size a
  inb_S4096x128_S256x128_1536_0 : ∀ a, (![1536, 0] : Fin 2 → Nat) a + S256x128.size a ≤ S4096x128.size a
  inb_S65x4096_S65x256_0_1792 : ∀ a, (![0, 1792] : Fin 2 → Nat) a + S65x256.size a ≤ S65x4096.size a
  inb_S4096x128_S256x128_1792_0 : ∀ a, (![1792, 0] : Fin 2 → Nat) a + S256x128.size a ≤ S4096x128.size a
  inb_S65x4096_S65x256_0_2048 : ∀ a, (![0, 2048] : Fin 2 → Nat) a + S65x256.size a ≤ S65x4096.size a
  inb_S4096x128_S256x128_2048_0 : ∀ a, (![2048, 0] : Fin 2 → Nat) a + S256x128.size a ≤ S4096x128.size a
  inb_S65x4096_S65x256_0_2304 : ∀ a, (![0, 2304] : Fin 2 → Nat) a + S65x256.size a ≤ S65x4096.size a
  inb_S4096x128_S256x128_2304_0 : ∀ a, (![2304, 0] : Fin 2 → Nat) a + S256x128.size a ≤ S4096x128.size a
  inb_S65x4096_S65x256_0_2560 : ∀ a, (![0, 2560] : Fin 2 → Nat) a + S65x256.size a ≤ S65x4096.size a
  inb_S4096x128_S256x128_2560_0 : ∀ a, (![2560, 0] : Fin 2 → Nat) a + S256x128.size a ≤ S4096x128.size a
  inb_S65x4096_S65x256_0_2816 : ∀ a, (![0, 2816] : Fin 2 → Nat) a + S65x256.size a ≤ S65x4096.size a
  inb_S4096x128_S256x128_2816_0 : ∀ a, (![2816, 0] : Fin 2 → Nat) a + S256x128.size a ≤ S4096x128.size a
  inb_S65x4096_S65x256_0_3072 : ∀ a, (![0, 3072] : Fin 2 → Nat) a + S65x256.size a ≤ S65x4096.size a
  inb_S4096x128_S256x128_3072_0 : ∀ a, (![3072, 0] : Fin 2 → Nat) a + S256x128.size a ≤ S4096x128.size a
  inb_S65x4096_S65x256_0_3328 : ∀ a, (![0, 3328] : Fin 2 → Nat) a + S65x256.size a ≤ S65x4096.size a
  inb_S4096x128_S256x128_3328_0 : ∀ a, (![3328, 0] : Fin 2 → Nat) a + S256x128.size a ≤ S4096x128.size a
  inb_S65x4096_S65x256_0_3584 : ∀ a, (![0, 3584] : Fin 2 → Nat) a + S65x256.size a ≤ S65x4096.size a
  inb_S4096x128_S256x128_3584_0 : ∀ a, (![3584, 0] : Fin 2 → Nat) a + S256x128.size a ≤ S4096x128.size a
  inb_S65x4096_S65x256_0_3840 : ∀ a, (![0, 3840] : Fin 2 → Nat) a + S65x256.size a ≤ S65x4096.size a
  inb_S4096x128_S256x128_3840_0 : ∀ a, (![3840, 0] : Fin 2 → Nat) a + S256x128.size a ≤ S4096x128.size a
  inb_S2048x128_S1024x128_0_0 : ∀ a, (![0, 0] : Fin 2 → Nat) a + S1024x128.size a ≤ S2048x128.size a
  h_S1024x128 : 0 < S1024x128.numel
  inb_S2048x128_S1024x128_1024_0 : ∀ a, (![1024, 0] : Fin 2 → Nat) a + S1024x128.size a ≤ S2048x128.size a
  dot_S2048x33_S33x256_S2048x256_1_0_0_1_n_n_wf : DotDims.WF S2048x33 S33x256 S2048x256 [1] [0] [0] [1] [] []
  dot_S2048x256_S256x32_S2048x32_1_0_0_1_n_n_wf : DotDims.WF S2048x256 S256x32 S2048x32 [1] [0] [0] [1] [] []
  dot_S1024x65_S65x256_S1024x256_1_0_0_1_n_n_wf : DotDims.WF S1024x65 S65x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x4096.size a ≤ S33x4096.size a
  hwx0_2 : ∀ i : grid0.Coords, EltTy.bits .bf16 = 32 ∨ (Rect.block (s := S33x4096) S33x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S4096x32.size a
  hwx0_3 : ∀ i : grid0.Coords, EltTy.bits .bf16 = 32 ∨ (Rect.block (s := S4096x32) S4096x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x4096.size a ≤ S65x4096.size a
  hwx0_5 : ∀ i : grid0.Coords, EltTy.bits .bf16 = 32 ∨ (Rect.block (s := S65x4096) S65x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S16384x128.size a
  hwx0_8 : ∀ i : grid0.Coords, EltTy.bits .f32 = 32 ∨ (Rect.block (s := S16384x128) S2048x128.size (cc0_transform_8 i) (hinb0_8 i)).WholeWords (EltTy.packing .f32)

variable [Facts₀]

def dot_S2048x33_S33x256_S2048x256_1_0_0_1_n_n : DotDims S2048x33 S33x256 S2048x256 where
  lhsContracting := [1]
  rhsContracting := [0]
  lhsNonContracting := [0]
  rhsNonContracting := [1]
  lhsBatch := []
  rhsBatch := []
  wf := dot_S2048x33_S33x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S1024x65_S65x256_S1024x256_1_0_0_1_n_n : DotDims S1024x65 S65x256 S1024x256 where
  lhsContracting := [1]
  rhsContracting := [0]
  lhsNonContracting := [0]
  rhsNonContracting := [1]
  lhsBatch := []
  rhsBatch := []
  wf := dot_S1024x65_S65x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S33x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S65x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4096x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Steps.lean ====
/-
  The kernel body as a composition of named steps, at any float instance.

  One grid step handles two streams of 1024 rows. For a stream, `stack` lays the stream's rows of the two inputs on
  top of each other (2048 rows) and appends a column of ones; `chain12` starts from the second layer's bias and adds,
  for each of the sixteen 256-wide slices of the hidden dimension, the clamped first-layer product times the
  matching rows of the second layer's weights (`step12`); `pack` clamps the result, puts its two halves side by
  side and appends a column of ones; `chain34` does for the last two layers what `chain12` does for the first
  two (`step34`). The printed body interleaves the two streams and cuts its text at fixed positions; unfolding
  those cuts leaves exactly these compositions.
-/
import proofs.«151286_g11802570129985_cont_fleet_79_24_alg».proof.Proof.Gen.KernelIdeal.Frame

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The stream's rows of the two inputs stacked, with a column of ones appended. -/
def stack (v0 v1 : Vec F S1024x32 .f32) : FVec F S2048x33 .bf16 :=
  concatenate S2048x33 1 [⟨S2048x32, truncf .bf16 (concatenate S2048x32 0 [⟨S1024x32, v0⟩, ⟨S1024x32, v1⟩] concatenates_S1024x32_S1024x32_S2048x32_d0) bitsLt_bf16_f32⟩,
    ⟨S2048x1, broadcast S2048x1 (Scalar.ofBits .bf16 0x3F80#16)⟩] concatenates_S2048x32_S2048x1_S2048x33_d1

/-- The clamped first-layer product of one 256-wide slice. -/
def hid12 (x : FVec F S2048x33 .bf16) (w1 : Vec F S33x256 .bf16) : FVec F S2048x256 .bf16 :=
  maximumf (truncf .bf16 (matmul dot_S2048x33_S33x256_S2048x256_1_0_0_1_n_n none x (shapeCast S33x256 w1 shapeCasts_S33x256_S33x256) (constant S2048x256 .f32 0x00000000#32)) bitsLt_bf16_f32)
    (broadcast S2048x256 (Scalar.ofBits .bf16 0x0000#16))

/-- One slice's contribution added to the second layer's accumulator. -/
def step12 (x : FVec F S2048x33 .bf16) (w1 : Vec F S33x256 .bf16) (w2 : Vec F S256x32 .bf16) (acc : FVec F S2048x32 .f32) : FVec F S2048x32 .f32 :=
  addf acc (matmul dot_S2048x256_S256x32_S2048x32_1_0_0_1_n_n none (hid12 x w1) (shapeCast S256x32 w2 shapeCasts_S256x32_S256x32) (constant S2048x32 .f32 0x00000000#32))

/-- The second layer's bias on every row. -/
def bias12 (b : Vec F S1x32 .f32) : FVec F S2048x32 .f32 :=
  broadcastTo S2048x32 (shapeCast S1x32 b shapeCasts_S1x32_S1x32) broadcasts_S1x32_S2048x32

/-- The second layer's accumulator after all sixteen slices: slice `c` reads columns `256 c …` of the first layer's
    weights and rows `256 c …` of the second layer's. -/
def chain12 (X : FVec F S2048x33 .bf16) (x2 : Vec F S33x4096 .bf16) (x3 : Vec F S4096x32 .bf16) (x4 : Vec F S1x32 .f32) : FVec F S2048x32 .f32 :=
  step12 X (View.ld x2 r0_33) (View.ld x3 r0_34) <|
  step12 X (View.ld x2 r0_31) (View.ld x3 r0_32) <|
  step12 X (View.ld x2 r0_29) (View.ld x3 r0_30) <|
  step12 X (View.ld x2 r0_27) (View.ld x3 r0_28) <|
  step12 X (View.ld x2 r0_25) (View.ld x3 r0_26) <|
  step12 X (View.ld x2 r0_23) (View.ld x3 r0_24) <|
  step12 X (View.ld x2 r0_21) (View.ld x3 r0_22) <|
  step12 X (View.ld x2 r0_19) (View.ld x3 r0_20) <|
  step12 X (View.ld x2 r0_17) (View.ld x3 r0_18) <|
  step12 X (View.ld x2 r0_15) (View.ld x3 r0_16) <|
  step12 X (View.ld x2 r0_13) (View.ld x3 r0_14) <|
  step12 X (View.ld x2 r0_11) (View.ld x3 r0_12) <|
  step12 X (View.ld x2 r0_9) (View.ld x3 r0_10) <|
  step12 X (View.ld x2 r0_7) (View.ld x3 r0_8) <|
  step12 X (View.ld x2 r0_5) (View.ld x3 r0_6) <|
  step12 X (View.ld x2 r0_3) (View.ld x3 r0_4) <|
  bias12 (View.ld x4 r0_2)

/-- The clamped accumulator's two halves side by side, with a column of ones appended. -/
def pack (a : FVec F S2048x32 .f32) : FVec F S1024x65 .bf16 :=
  truncf .bf16 (concatenate S1024x65 1 [
    ⟨S1024x32, extractStridedSlice S1024x32 ![0, 0] (maximumf a (broadcast S2048x32 (Scalar.ofBits .f32 0x00000000#32))) slices_S2048x32_o0_0_S1024x32⟩,
    ⟨S1024x32, extractStridedSlice S1024x32 ![1024, 0] (maximumf a (broadcast S2048x32 (Scalar.ofBits .f32 0x00000000#32))) slices_S2048x32_o1024_0_S1024x32⟩,
    ⟨S1024x1, broadcast S1024x1 (Scalar.ofBits .f32 0x3F800000#32)⟩] concatenates_S1024x32_S1024x32_S1024x1_S1024x65_d1) bitsLt_bf16_f32

/-- The clamped third-layer product of one 256-wide slice. -/
def hid34 (u : FVec F S1024x65 .bf16) (w3 : Vec F S65x256 .bf16) : FVec F S1024x256 .bf16 :=
  maximumf (truncf .bf16 (matmul dot_S1024x65_S65x256_S1024x256_1_0_0_1_n_n none u (shapeCast S65x256 w3 shapeCasts_S65x256_S65x256) (constant S1024x256 .f32 0x00000000#32)) bitsLt_bf16_f32)
    (broadcast S1024x256 (Scalar.ofBits .bf16 0x0000#16))

/-- One slice's contribution added to the last layer's accumulator. -/
def step34 (u : FVec F S1024x65 .bf16) (w3 : Vec F S65x256 .bf16) (w4 : Vec F S256x128 .bf16) (acc : FVec F S1024x128 .f32) : FVec F S1024x128 .f32 :=
  addf acc (matmul dot_S1024x256_S256x128_S1024x128_1_0_0_1_n_n none (hid34 u w3) (shapeCast S256x128 w4 shapeCasts_S256x128_S256x128) (constant S1024x128 .f32 0x00000000#32))

/-- The last layer's bias on every row. -/
def bias34 (b : Vec F S1x128 .f32) : FVec F S1024x128 .f32 :=
  broadcastTo S1024x128 (shapeCast S1x128 b shapeCasts_S1x128_S1x128) broadcasts_S1x128_S1024x128

/-- The last layer's accumulator after all sixteen slices: slice `c` reads columns `256 c …` of the third layer's
    weights and rows `256 c …` of the last layer's. -/
def chain34 (U : FVec F S1024x65 .bf16) (x5 : Vec F S65x4096 .bf16) (x6 : Vec F S4096x128 .bf16) (x7 : Vec F S1x128 .f32) : FVec F S1024x128 .f32 :=
  step34 U (View.ld x5 r0_66) (View.ld x6 r0_67) <|
  step34 U (View.ld x5 r0_64) (View.ld x6 r0_65) <|
  step34 U (View.ld x5 r0_62) (View.ld x6 r0_63) <|
  step34 U (View.ld x5 r0_60) (View.ld x6 r0_61) <|
  step34 U (View.ld x5 r0_58) (View.ld x6 r0_59) <|
  step34 U (View.ld x5 r0_56) (View.ld x6 r0_57) <|
  step34 U (View.ld x5 r0_54) (View.ld x6 r0_55) <|
  step34 U (View.ld x5 r0_52) (View.ld x6 r0_53) <|
  step34 U (View.ld x5 r0_50) (View.ld x6 r0_51) <|
  step34 U (View.ld x5 r0_48) (View.ld x6 r0_49) <|
  step34 U (View.ld x5 r0_46) (View.ld x6 r0_47) <|
  step34 U (View.ld x5 r0_44) (View.ld x6 r0_45) <|
  step34 U (View.ld x5 r0_42) (View.ld x6 r0_43) <|
  step34 U (View.ld x5 r0_40) (View.ld x6 r0_41) <|
  step34 U (View.ld x5 r0_38) (View.ld x6 r0_39) <|
  step34 U (View.ld x5 r0_36) (View.ld x6 r0_37) <|
  bias34 (View.ld x7 r0_35)

/-- What one stream stores: its 1024 rows of the output block. -/
def stream (v0 v1 : Vec F S1024x32 .f32) (x2 : Vec F S33x4096 .bf16) (x3 : Vec F S4096x32 .bf16) (x4 : Vec F S1x32 .f32)
    (x5 : Vec F S65x4096 .bf16) (x6 : Vec F S4096x128 .bf16) (x7 : Vec F S1x128 .f32) : FVec F S1024x128 .f32 :=
  chain34 (pack (chain12 (stack v0 v1) x2 x3 x4)) x5 x6 x7

end Cert.KernelIdeal.Body

end
-- ==== Proof.Sums.lean ====
/-
  Finite sums over the extended reals (or any commutative monoid), regrouped.

  A sum over 4096 indices is the sum of sixteen consecutive runs of 256; a sum over 33 = 32 + 1 or 65 = 32 + 32 + 1
  indices splits off its last index and, for 65, halves the rest. Addition is commutative and associative here, so
  none of this depends on the values summed.
-/
import Mathlib.Algebra.BigOperators.Fin
import Mathlib.Algebra.BigOperators.Intervals

namespace Cert.Sums

open Finset

variable {M : Type*} [AddCommMonoid M]

/-- A function on `Fin 4096` extended by zero to all naturals. -/
def ext (f : Fin 4096 → M) (n : ℕ) : M := if h : n < 4096 then f ⟨n, h⟩ else 0

theorem ext_lt (f : Fin 4096 → M) (n : ℕ) (h : n < 4096) : ext f n = f ⟨n, h⟩ := dif_pos h

/-- The run of 256 consecutive values of `f` starting at `o`, added up. -/
def chunk (f : Fin 4096 → M) (o : ℕ) : M := ∑ k ∈ range 256, ext f (o + k)

/-- A sum over `Fin 256` of `f` at `o + k` is the run starting at `o`. -/
theorem chunk_eq (f : Fin 4096 → M) (o : ℕ) (h : o + 256 ≤ 4096) (g : Fin 256 → M)
    (hg : ∀ k : Fin 256, g k = f ⟨o + k.val, by have := k.isLt; omega⟩) : ∑ k : Fin 256, g k = chunk f o := by
  unfold chunk
  rw [← Fin.sum_univ_eq_sum_range (fun k => ext f (o + k)) 256]
  refine Finset.sum_congr rfl fun k _ => ?_
  rw [hg k, ext_lt]

/-- Consecutive runs of length `b` make up an initial segment. -/
theorem sum_range_mul (n b : ℕ) (f : ℕ → M) :
    ∑ i ∈ range (n * b), f i = ∑ c ∈ range n, ∑ k ∈ range b, f (c * b + k) := by
  induction n with
  | zero => simp
  | succ n ih => rw [Nat.succ_mul, Finset.sum_range_add, ih, Finset.sum_range_succ]

/-- Sixteen terms added one after the other onto `a` are `a` plus their sum. -/
theorem nest16 (a t0 t1 t2 t3 t4 t5 t6 t7 t8 t9 t10 t11 t12 t13 t14 t15 : M) :
    a + t0 + t1 + t2 + t3 + t4 + t5 + t6 + t7 + t8 + t9 + t10 + t11 + t12 + t13 + t14 + t15
      = a + (t0 + t1 + t2 + t3 + t4 + t5 + t6 + t7 + t8 + t9 + t10 + t11 + t12 + t13 + t14 + t15) := by
  simp only [add_assoc]

/-- A sum over the first sixteen naturals, written out. -/
theorem sum_range_16 (g : ℕ → M) :
    ∑ c ∈ range 16, g c = g 0 + g 1 + g 2 + g 3 + g 4 + g 5 + g 6 + g 7 + g 8 + g 9 + g 10 + g 11 + g 12 + g 13 + g 14 + g 15 := by
  simp only [Finset.sum_range_succ, Finset.sum_range_zero, zero_add]

/-- The whole sum is the sixteen runs, added one after the other onto `a`. -/
theorem sum_chunks (f : Fin 4096 → M) (a : M) :
    a + chunk f 0 + chunk f 256 + chunk f 512 + chunk f 768 + chunk f 1024 + chunk f 1280 + chunk f 1536 + chunk f 1792
      + chunk f 2048 + chunk f 2304 + chunk f 2560 + chunk f 2816 + chunk f 3072 + chunk f 3328 + chunk f 3584 + chunk f 3840
      = a + ∑ K : Fin 4096, f K := by
  have h : ∑ K : Fin 4096, f K = ∑ i ∈ range (16 * 256), ext f i := by
    rw [← Fin.sum_univ_eq_sum_range (ext f) (16 * 256)]
    exact Finset.sum_congr rfl fun K _ => (ext_lt f K.val K.isLt).symm
  have e : ∀ c : ℕ, ∑ k ∈ range 256, ext f (c * 256 + k) = chunk f (c * 256) := fun _ => rfl
  rw [h, sum_range_mul, sum_range_16]
  simp only [e]
  exact nest16 a _ _ _ _ _ _ _ _ _ _ _ _ _ _ _ _

/-- Thirty-three terms: the first thirty-two, then the last. -/
theorem sum_33 (g : Fin 33 → M) : ∑ j, g j = ∑ j : Fin 32, g (Fin.castSucc j) + g (Fin.last 32) :=
  Fin.sum_univ_castSucc g

/-- Sixty-four terms: two halves. -/
theorem sum_64 (g : Fin 64 → M) : ∑ j, g j = ∑ j : Fin 32, g (Fin.castAdd 32 j) + ∑ j : Fin 32, g (Fin.natAdd 32 j) :=
  Fin.sum_univ_add (a := 32) (b := 32) g

/-- Sixty-five terms: two halves of the first sixty-four, then the last. -/
theorem sum_65 (g : Fin 65 → M) :
    ∑ j, g j = ∑ j : Fin 32, g (Fin.castSucc (Fin.castAdd 32 j)) + ∑ j : Fin 32, g (Fin.castSucc (Fin.natAdd 32 j)) + g (Fin.last 64) := by
  rw [Fin.sum_univ_castSucc g, sum_64]

end Cert.Sums
-- ==== Proof.StepsAt.lean ====
/-
  The named steps of the kernel body, read at an index over the extended reals.

  A matrix product into a zero accumulator is, entry by entry, the finite sum over the shared index of the
  products of the operands' entries; a change of float format is the identity and a clamp is a maximum with zero.
  One slice's step adds to the accumulator's entry the run of 256 consecutive terms of the layer's 4096-term sum that
  the slice's columns and rows name. The stacked input has the first input's rows on top, the second's below and a
  last column of ones; the packed accumulator has its clamped upper half in columns 0…31, its clamped lower half
  in columns 32…63 and a last column of ones.
-/
import proofs.«151286_g11802570129985_cont_fleet_79_24_alg».proof.Proof.Steps
import proofs.«151286_g11802570129985_cont_fleet_79_24_alg».proof.Proof.Sums
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Body

open Cert.KernelIdeal Cert.KernelIdeal.Gen Idealize.ShloMosaic Idealize.ShloMosaic.TcCoe Idealize.SL.Sem Idealize.ShloMosaic.ValueIdx

/-! ## The four matrix products at an entry -/

theorem lhs_a_0 (i : S2048x256.Idx) (q : dot_S2048x33_S33x256_S2048x256_1_0_0_1_n_n.contr.Idx) :
    (dot_S2048x33_S33x256_S2048x256_1_0_0_1_n_n.lhsIdx i q 0).val = (i 0).val := by
  unfold DotDims.lhsIdx
  rw [dif_neg (show ¬(0 : Fin S2048x33.rank) ∈ dot_S2048x33_S33x256_S2048x256_1_0_0_1_n_n.lhsBatch by decide), dif_pos (show (0 : Fin S2048x33.rank) ∈ dot_S2048x33_S33x256_S2048x256_1_0_0_1_n_n.lhsNonContracting by decide)]
  rfl
theorem lhs_a_1 (i : S2048x256.Idx) (q : dot_S2048x33_S33x256_S2048x256_1_0_0_1_n_n.contr.Idx) :
    (dot_S2048x33_S33x256_S2048x256_1_0_0_1_n_n.lhsIdx i q 1).val = (q ⟨0, by decide⟩).val :=
  dot_S2048x33_S33x256_S2048x256_1_0_0_1_n_n.lhsIdx_val_of_single rfl i q
theorem rhs_a_0 (i : S2048x256.Idx) (q : dot_S2048x33_S33x256_S2048x256_1_0_0_1_n_n.contr.Idx) :
    (dot_S2048x33_S33x256_S2048x256_1_0_0_1_n_n.rhsIdx i q 0).val = (q ⟨0, by decide⟩).val :=
  dot_S2048x33_S33x256_S2048x256_1_0_0_1_n_n.rhsIdx_val_of_single rfl i q
theorem rhs_a_1 (i : S2048x256.Idx) (q : dot_S2048x33_S33x256_S2048x256_1_0_0_1_n_n.contr.Idx) :
    (dot_S2048x33_S33x256_S2048x256_1_0_0_1_n_n.rhsIdx i q 1).val = (i 1).val := by
  unfold DotDims.rhsIdx
  rw [dif_neg (show ¬(1 : Fin S33x256.rank) ∈ dot_S2048x33_S33x256_S2048x256_1_0_0_1_n_n.rhsBatch by decide), dif_pos (show (1 : Fin S33x256.rank) ∈ dot_S2048x33_S33x256_S2048x256_1_0_0_1_n_n.rhsNonContracting by decide)]
  rfl

/-- Entry `(p, k)` of a 2048 × 33 by 33 × 256 product into a zero accumulator: the sum over the 33 shared indices. -/
theorem mul_a_apply (x : FVec Ideal S2048x33 .bf16) (w : FVec Ideal S33x256 .bf16) (p : Fin 2048) (k : Fin 256) :
    matmul dot_S2048x33_S33x256_S2048x256_1_0_0_1_n_n none x w (constant S2048x256 .f32 0x00000000#32) (ix2 p k)
      = ∑ j : Fin 33, x (ix2 p j) * w (ix2 j k) := by
  simp only [matmul]
  rw [Ideal.matmul_constant_zero_apply, ← Equiv.sum_comp (ValueIdx.contrEquiv1 dot_S2048x33_S33x256_S2048x256_1_0_0_1_n_n 33 rfl rfl).symm]
  refine Finset.sum_congr rfl fun j _ => ?_
  have hk := ValueIdx.contrEquiv1_symm_val dot_S2048x33_S33x256_S2048x256_1_0_0_1_n_n 33 rfl rfl j
  have el : dot_S2048x33_S33x256_S2048x256_1_0_0_1_n_n.lhsIdx (ix2 p k) ((ValueIdx.contrEquiv1 dot_S2048x33_S33x256_S2048x256_1_0_0_1_n_n 33 rfl rfl).symm j) = ix2 p j := funext fun a => Fin.ext (by
    match a with
    | ⟨0, _⟩ => exact lhs_a_0 _ _
    | ⟨1, _⟩ => exact (lhs_a_1 _ _).trans hk)
  have er : dot_S2048x33_S33x256_S2048x256_1_0_0_1_n_n.rhsIdx (ix2 p k) ((ValueIdx.contrEquiv1 dot_S2048x33_S33x256_S2048x256_1_0_0_1_n_n 33 rfl rfl).symm j) = ix2 j k := funext fun a => Fin.ext (by
    match a with
    | ⟨0, _⟩ => exact (rhs_a_0 _ _).trans hk
    | ⟨1, _⟩ => exact rhs_a_1 _ _)
  rw [el, er]

theorem lhs_b_0 (i : S2048x32.Idx) (q : dot_S2048x256_S256x32_S2048x32_1_0_0_1_n_n.contr.Idx) :
    (dot_S2048x256_S256x32_S2048x32_1_0_0_1_n_n.lhsIdx i q 0).val = (i 0).val := by
  unfold DotDims.lhsIdx
  rw [dif_neg (show ¬(0 : Fin S2048x256.rank) ∈ dot_S2048x256_S256x32_S2048x32_1_0_0_1_n_n.lhsBatch by decide), dif_pos (show (0 : Fin S2048x256.rank) ∈ dot_S2048x256_S256x32_S2048x32_1_0_0_1_n_n.lhsNonContracting by decide)]
  rfl
theorem lhs_b_1 (i : S2048x32.Idx) (q : dot_S2048x256_S256x32_S2048x32_1_0_0_1_n_n.contr.Idx) :
    (dot_S2048x256_S256x32_S2048x32_1_0_0_1_n_n.lhsIdx i q 1).val = (q ⟨0, by decide⟩).val :=
  dot_S2048x256_S256x32_S2048x32_1_0_0_1_n_n.lhsIdx_val_of_single rfl i q
theorem rhs_b_0 (i : S2048x32.Idx) (q : dot_S2048x256_S256x32_S2048x32_1_0_0_1_n_n.contr.Idx) :
    (dot_S2048x256_S256x32_S2048x32_1_0_0_1_n_n.rhsIdx i q 0).val = (q ⟨0, by decide⟩).val :=
  dot_S2048x256_S256x32_S2048x32_1_0_0_1_n_n.rhsIdx_val_of_single rfl i q
theorem rhs_b_1 (i : S2048x32.Idx) (q : dot_S2048x256_S256x32_S2048x32_1_0_0_1_n_n.contr.Idx) :
    (dot_S2048x256_S256x32_S2048x32_1_0_0_1_n_n.rhsIdx i q 1).val = (i 1).val := by
  unfold DotDims.rhsIdx
  rw [dif_neg (show ¬(1 : Fin S256x32.rank) ∈ dot_S2048x256_S256x32_S2048x32_1_0_0_1_n_n.rhsBatch by decide), dif_pos (show (1 : Fin S256x32.rank) ∈ dot_S2048x256_S256x32_S2048x32_1_0_0_1_n_n.rhsNonContracting by decide)]
  rfl

/-- Entry `(p, q)` of a 2048 × 256 by 256 × 32 product into a zero accumulator. -/
theorem mul_b_apply (x : FVec Ideal S2048x256 .bf16) (w : FVec Ideal S256x32 .bf16) (p : Fin 2048) (q : Fin 32) :
    matmul dot_S2048x256_S256x32_S2048x32_1_0_0_1_n_n none x w (constant S2048x32 .f32 0x00000000#32) (ix2 p q)
      = ∑ k : Fin 256, x (ix2 p k) * w (ix2 k q) := by
  simp only [matmul]
  rw [Ideal.matmul_constant_zero_apply, ← Equiv.sum_comp (ValueIdx.contrEquiv1 dot_S2048x256_S256x32_S2048x32_1_0_0_1_n_n 256 rfl rfl).symm]
  refine Finset.sum_congr rfl fun k _ => ?_
  have hk := ValueIdx.contrEquiv1_symm_val dot_S2048x256_S256x32_S2048x32_1_0_0_1_n_n 256 rfl rfl k
  have el : dot_S2048x256_S256x32_S2048x32_1_0_0_1_n_n.lhsIdx (ix2 p q) ((ValueIdx.contrEquiv1 dot_S2048x256_S256x32_S2048x32_1_0_0_1_n_n 256 rfl rfl).symm k) = ix2 p k := funext fun a => Fin.ext (by
    match a with
    | ⟨0, _⟩ => exact lhs_b_0 _ _
    | ⟨1, _⟩ => exact (lhs_b_1 _ _).trans hk)
  have er : dot_S2048x256_S256x32_S2048x32_1_0_0_1_n_n.rhsIdx (ix2 p q) ((ValueIdx.contrEquiv1 dot_S2048x256_S256x32_S2048x32_1_0_0_1_n_n 256 rfl rfl).symm k) = ix2 k q := funext fun a => Fin.ext (by
    match a with
    | ⟨0, _⟩ => exact (rhs_b_0 _ _).trans hk
    | ⟨1, _⟩ => exact rhs_b_1 _ _)
  rw [el, er]

theorem lhs_c_0 (i : S1024x256.Idx) (q : dot_S1024x65_S65x256_S1024x256_1_0_0_1_n_n.contr.Idx) :
    (dot_S1024x65_S65x256_S1024x256_1_0_0_1_n_n.lhsIdx i q 0).val = (i 0).val := by
  unfold DotDims.lhsIdx
  rw [dif_neg (show ¬(0 : Fin S1024x65.rank) ∈ dot_S1024x65_S65x256_S1024x256_1_0_0_1_n_n.lhsBatch by decide), dif_pos (show (0 : Fin S1024x65.rank) ∈ dot_S1024x65_S65x256_S1024x256_1_0_0_1_n_n.lhsNonContracting by decide)]
  rfl
theorem lhs_c_1 (i : S1024x256.Idx) (q : dot_S1024x65_S65x256_S1024x256_1_0_0_1_n_n.contr.Idx) :
    (dot_S1024x65_S65x256_S1024x256_1_0_0_1_n_n.lhsIdx i q 1).val = (q ⟨0, by decide⟩).val :=
  dot_S1024x65_S65x256_S1024x256_1_0_0_1_n_n.lhsIdx_val_of_single rfl i q
theorem rhs_c_0 (i : S1024x256.Idx) (q : dot_S1024x65_S65x256_S1024x256_1_0_0_1_n_n.contr.Idx) :
    (dot_S1024x65_S65x256_S1024x256_1_0_0_1_n_n.rhsIdx i q 0).val = (q ⟨0, by decide⟩).val :=
  dot_S1024x65_S65x256_S1024x256_1_0_0_1_n_n.rhsIdx_val_of_single rfl i q
theorem rhs_c_1 (i : S1024x256.Idx) (q : dot_S1024x65_S65x256_S1024x256_1_0_0_1_n_n.contr.Idx) :
    (dot_S1024x65_S65x256_S1024x256_1_0_0_1_n_n.rhsIdx i q 1).val = (i 1).val := by
  unfold DotDims.rhsIdx
  rw [dif_neg (show ¬(1 : Fin S65x256.rank) ∈ dot_S1024x65_S65x256_S1024x256_1_0_0_1_n_n.rhsBatch by decide), dif_pos (show (1 : Fin S65x256.rank) ∈ dot_S1024x65_S65x256_S1024x256_1_0_0_1_n_n.rhsNonContracting by decide)]
  rfl

/-- Entry `(p, k)` of a 1024 × 65 by 65 × 256 product into a zero accumulator. -/
theorem mul_c_apply (x : FVec Ideal S1024x65 .bf16) (w : FVec Ideal S65x256 .bf16) (p : Fin 1024) (k : Fin 256) :
    matmul dot_S1024x65_S65x256_S1024x256_1_0_0_1_n_n none x w (constant S1024x256 .f32 0x00000000#32) (ix2 p k)
      = ∑ j : Fin 65, x (ix2 p j) * w (ix2 j k) := by
  simp only [matmul]
  rw [Ideal.matmul_constant_zero_apply, ← Equiv.sum_comp (ValueIdx.contrEquiv1 dot_S1024x65_S65x256_S1024x256_1_0_0_1_n_n 65 rfl rfl).symm]
  refine Finset.sum_congr rfl fun j _ => ?_
  have hk := ValueIdx.contrEquiv1_symm_val dot_S1024x65_S65x256_S1024x256_1_0_0_1_n_n 65 rfl rfl j
  have el : dot_S1024x65_S65x256_S1024x256_1_0_0_1_n_n.lhsIdx (ix2 p k) ((ValueIdx.contrEquiv1 dot_S1024x65_S65x256_S1024x256_1_0_0_1_n_n 65 rfl rfl).symm j) = ix2 p j := funext fun a => Fin.ext (by
    match a with
    | ⟨0, _⟩ => exact lhs_c_0 _ _
    | ⟨1, _⟩ => exact (lhs_c_1 _ _).trans hk)
  have er : dot_S1024x65_S65x256_S1024x256_1_0_0_1_n_n.rhsIdx (ix2 p k) ((ValueIdx.contrEquiv1 dot_S1024x65_S65x256_S1024x256_1_0_0_1_n_n 65 rfl rfl).symm j) = ix2 j k := funext fun a => Fin.ext (by
    match a with
    | ⟨0, _⟩ => exact (rhs_c_0 _ _).trans hk
    | ⟨1, _⟩ => exact rhs_c_1 _ _)
  rw [el, er]

theorem lhs_d_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_d_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_d_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_d_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Entry `(p, q)` of a 1024 × 256 by 256 × 128 product into a zero accumulator. -/
theorem mul_d_apply (x : FVec Ideal S1024x256 .bf16) (w : FVec Ideal S256x128 .bf16) (p : Fin 1024) (q : Fin 128) :
    matmul dot_S1024x256_S256x128_S1024x128_1_0_0_1_n_n none x w (constant S1024x128 .f32 0x00000000#32) (ix2 p q)
      = ∑ k : Fin 256, x (ix2 p k) * w (ix2 k q) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p q) ((ValueIdx.contrEquiv1 dot_S1024x256_S256x128_S1024x128_1_0_0_1_n_n 256 rfl rfl).symm k) = ix2 p k := funext fun a => Fin.ext (by
    match a with
    | ⟨0, _⟩ => exact lhs_d_0 _ _
    | ⟨1, _⟩ => exact (lhs_d_1 _ _).trans hk)
  have er : dot_S1024x256_S256x128_S1024x128_1_0_0_1_n_n.rhsIdx (ix2 p q) ((ValueIdx.contrEquiv1 dot_S1024x256_S256x128_S1024x128_1_0_0_1_n_n 256 rfl rfl).symm k) = ix2 k q := funext fun a => Fin.ext (by
    match a with
    | ⟨0, _⟩ => exact (rhs_d_0 _ _).trans hk
    | ⟨1, _⟩ => exact rhs_d_1 _ _)
  rw [el, er]

/-! ## One slice's step at an entry -/

/-- The clamped first-layer product at `(p, k)`. -/
theorem hid12_apply (x : FVec Ideal S2048x33 .bf16) (w1 : Vec Ideal S33x256 .bf16) (p : Fin 2048) (k : Fin 256) :
    hid12 x w1 (ix2 p k) = max (∑ j : Fin 33, x (ix2 p j) * w1 (ix2 j k)) 0 := by
  unfold hid12
  rw [maximumf_apply, truncf_apply, shapeCast_self, mul_a_apply, broadcast_apply]
  exact congrArg (max _) Ideal.ofBits_zero_bf16

/-- One slice of the first two layers: the accumulator's entry plus the slice's 256 terms. -/
theorem step12_apply (x : FVec Ideal S2048x33 .bf16) (w1 : Vec Ideal S33x256 .bf16) (w2 : Vec Ideal S256x32 .bf16)
    (acc : FVec Ideal S2048x32 .f32) (p : Fin 2048) (q : Fin 32) :
    step12 x w1 w2 acc (ix2 p q)
      = acc (ix2 p q) + ∑ k : Fin 256, max (∑ j : Fin 33, x (ix2 p j) * w1 (ix2 j k)) 0 * w2 (ix2 k q) := by
  unfold step12
  rw [addf_apply, mul_b_apply, shapeCast_self]
  simp only [hid12_apply]

/-- The clamped third-layer product at `(p, k)`. -/
theorem hid34_apply (u : FVec Ideal S1024x65 .bf16) (w3 : Vec Ideal S65x256 .bf16) (p : Fin 1024) (k : Fin 256) :
    hid34 u w3 (ix2 p k) = max (∑ j : Fin 65, u (ix2 p j) * w3 (ix2 j k)) 0 := by
  unfold hid34
  rw [maximumf_apply, truncf_apply, shapeCast_self, mul_c_apply, broadcast_apply]
  exact congrArg (max _) Ideal.ofBits_zero_bf16

/-- One slice of the last two layers: the accumulator's entry plus the slice's 256 terms. -/
theorem step34_apply (u : FVec Ideal S1024x65 .bf16) (w3 : Vec Ideal S65x256 .bf16) (w4 : Vec Ideal S256x128 .bf16)
    (acc : FVec Ideal S1024x128 .f32) (p : Fin 1024) (q : Fin 128) :
    step34 u w3 w4 acc (ix2 p q)
      = acc (ix2 p q) + ∑ k : Fin 256, max (∑ j : Fin 65, u (ix2 p j) * w3 (ix2 j k)) 0 * w4 (ix2 k q) := by
  unfold step34
  rw [addf_apply, mul_d_apply, shapeCast_self]
  simp only [hid34_apply]

/-! ## Loads of a run of columns or rows -/

variable {Val : EltTy → Type} {e : EltTy}

/-- A load of all rows and the columns `o, o + 1, …` reads the array at column `o + b`. -/
theorem ld_cols {n0 n1 s1 : Nat} (X : (⟨2, ![n0, n1]⟩ : Shape).Idx → Val e) (o : Nat)
    (inb : ∀ a, ![0, o] a + (⟨2, ![n0, s1]⟩ : Shape).size a ≤ (⟨2, ![n0, n1]⟩ : Shape).size a) (a : Fin n0) (b : Fin s1)
    (h : o + b.val < n1) :
    View.ld X (Rect.unit (s := ⟨2, ![n0, n1]⟩) ![0, o] (⟨2, ![n0, s1]⟩ : Shape).size inb) (ix2 a b) = X (ix2 a ⟨o + b.val, h⟩) := by
  refine congrArg X (funext fun d => Fin.ext ?_)
  match d with
  | ⟨0, _⟩ => show 0 + 1 * a.val = a.val; omega
  | ⟨1, _⟩ => show o + 1 * b.val = o + b.val; omega

/-- A load of the rows `o, o + 1, …` and all columns reads the array at row `o + a`. -/
theorem ld_rows {n0 n1 s0 : Nat} (X : (⟨2, ![n0, n1]⟩ : Shape).Idx → Val e) (o : Nat)
    (inb : ∀ a, ![o, 0] a + (⟨2, ![s0, n1]⟩ : Shape).size a ≤ (⟨2, ![n0, n1]⟩ : Shape).size a) (a : Fin s0) (b : Fin n1)
    (h : o + a.val < n0) :
    View.ld X (Rect.unit (s := ⟨2, ![n0, n1]⟩) ![o, 0] (⟨2, ![s0, n1]⟩ : Shape).size inb) (ix2 a b) = X (ix2 ⟨o + a.val, h⟩ b) := by
  refine congrArg X (funext fun d => Fin.ext ?_)
  match d with
  | ⟨0, _⟩ => show o + 1 * a.val = o + a.val; omega
  | ⟨1, _⟩ => show 0 + 1 * b.val = b.val; omega

end Cert.KernelIdeal.Body

end
-- ==== Proof.Pieces.lean ====
/-
  The pieces of a stream at an index: a slice's step through the two loads that feed it, the bias rows, the stacked
  input and the packed accumulator.

  Slice `c` loads columns `256 c, …, 256 c + 255` of the layer's first weight matrix and the same rows of its second,
  so its 256 terms are the run of the layer's 4096 terms that starts at `256 c`.
-/
import proofs.«151286_g11802570129985_cont_fleet_79_24_alg».proof.Proof.StepsAt

noncomputable section

namespace Cert.KernelIdeal.Body

open Cert.KernelIdeal Cert.KernelIdeal.Gen Idealize.ShloMosaic Idealize.ShloMosaic.TcCoe Idealize.SL.Sem Idealize.ShloMosaic.ValueIdx

/-! ## A slice's step through its loads -/

/-- The first two layers' term number `K` for row `p` and column `q`. -/
def term12 (X : FVec Ideal S2048x33 .bf16) (x2 : Vec Ideal S33x4096 .bf16) (x3 : Vec Ideal S4096x32 .bf16) (p : Fin 2048) (q : Fin 32)
    (K : Fin 4096) : EReal :=
  max (∑ j : Fin 33, X (ix2 p j) * x2 (ix2 j K)) 0 * x3 (ix2 K q)

/-- The slice that loads columns `o …` and rows `o …` adds the run of terms starting at `o`. -/
theorem step12_ld (X : FVec Ideal S2048x33 .bf16) (x2 : Vec Ideal S33x4096 .bf16) (x3 : Vec Ideal S4096x32 .bf16) (o : Nat)
    (inb1 : ∀ a, ![0, o] a + S33x256.size a ≤ S33x4096.size a) (inb2 : ∀ a, ![o, 0] a + S256x32.size a ≤ S4096x32.size a)
    (acc : FVec Ideal S2048x32 .f32) (p : Fin 2048) (q : Fin 32) :
    step12 X (View.ld x2 (Rect.unit (s := S33x4096) ![0, o] S33x256.size inb1))
        (View.ld x3 (Rect.unit (s := S4096x32) ![o, 0] S256x32.size inb2)) acc (ix2 p q)
      = acc (ix2 p q) + Cert.Sums.chunk (term12 X x2 x3 p q) o := by
  have ho : o + 256 ≤ 4096 := inb1 1
  rw [step12_apply]
  refine congrArg (acc (ix2 p q) + ·) (Cert.Sums.chunk_eq _ o ho _ fun k => ?_)
  have hk : o + k.val < 4096 := by have := k.isLt; omega
  unfold term12
  rw [ld_rows (Val := Elt Ideal) x3 o inb2 k q hk]
  refine congrArg (fun t => max t 0 * x3 (ix2 ⟨o + k.val, hk⟩ q)) (Finset.sum_congr rfl fun j _ => ?_)
  rw [ld_cols (Val := Elt Ideal) x2 o inb1 j k hk]

/-- The last two layers' term number `K` for row `p` and column `q`. -/
def term34 (U : FVec Ideal S1024x65 .bf16) (x5 : Vec Ideal S65x4096 .bf16) (x6 : Vec Ideal S4096x128 .bf16) (p : Fin 1024) (q : Fin 128)
    (K : Fin 4096) : EReal :=
  max (∑ j : Fin 65, U (ix2 p j) * x5 (ix2 j K)) 0 * x6 (ix2 K q)

/-- The slice that loads columns `o …` and rows `o …` adds the run of terms starting at `o`. -/
theorem step34_ld (U : FVec Ideal S1024x65 .bf16) (x5 : Vec Ideal S65x4096 .bf16) (x6 : Vec Ideal S4096x128 .bf16) (o : Nat)
    (inb1 : ∀ a, ![0, o] a + S65x256.size a ≤ S65x4096.size a) (inb2 : ∀ a, ![o, 0] a + S256x128.size a ≤ S4096x128.size a)
    (acc : FVec Ideal S1024x128 .f32) (p : Fin 1024) (q : Fin 128) :
    step34 U (View.ld x5 (Rect.unit (s := S65x4096) ![0, o] S65x256.size inb1))
        (View.ld x6 (Rect.unit (s := S4096x128) ![o, 0] S256x128.size inb2)) acc (ix2 p q)
      = acc (ix2 p q) + Cert.Sums.chunk (term34 U x5 x6 p q) o := by
  have ho : o + 256 ≤ 4096 := inb1 1
  rw [step34_apply]
  refine congrArg (acc (ix2 p q) + ·) (Cert.Sums.chunk_eq _ o ho _ fun k => ?_)
  have hk : o + k.val < 4096 := by have := k.isLt; omega
  unfold term34
  rw [ld_rows (Val := Elt Ideal) x6 o inb2 k q hk]
  refine congrArg (fun t => max t 0 * x6 (ix2 ⟨o + k.val, hk⟩ q)) (Finset.sum_congr rfl fun j _ => ?_)
  rw [ld_cols (Val := Elt Ideal) x5 o inb1 j k hk]

/-! ## The bias rows -/

/-- Every row of the second layer's bias block is the one row loaded. -/
theorem bias12_apply (x4 : Vec Ideal S1x32 .f32) (p : Fin 2048) (q : Fin 32) :
    bias12 (View.ld x4 r0_2) (ix2 p q) = x4 (ix2 0 q) := by
  unfold bias12
  have hz : (![0, 0] : Fin S1x32.rank → Nat) = fun _ => 0 := funext fun a => by
    match a with | ⟨0, _⟩ => rfl | ⟨1, _⟩ => rfl
  have e : View.ld x4 r0_2 = x4 := View.ld_unit_zero (S := S1x32) hz _ x4
  rw [e, shapeCast_self]
  exact broadcastTo_apply _ broadcasts_S1x32_S2048x32 (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])

/-- Every row of the last layer's bias block is the one row loaded. -/
theorem bias34_apply (x7 : Vec Ideal S1x128 .f32) (p : Fin 1024) (q : Fin 128) :
    bias34 (View.ld x7 r0_35) (ix2 p q) = x7 (ix2 0 q) := by
  unfold bias34
  have hz : (![0, 0] : Fin S1x128.rank → Nat) = fun _ => 0 := funext fun a => by
    match a with | ⟨0, _⟩ => rfl | ⟨1, _⟩ => rfl
  have e : View.ld x7 r0_35 = x7 := View.ld_unit_zero (S := S1x128) hz _ x7
  rw [e, shapeCast_self]
  exact broadcastTo_apply _ broadcasts_S1x128_S1024x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stacked input -/

/-- Rows 0…1023 of the stacked input, in the first 32 columns, are the first input's rows. -/
theorem stack_top (v0 v1 : Vec Ideal S1024x32 .f32) (P : Fin 2048) (p : Fin 1024) (hP : P.val = p.val) (j : Fin 32) :
    stack v0 v1 (ix2 P (Fin.castSucc j)) = v0 (ix2 p j) := by
  unfold stack
  rw [concatenate_pair_apply_left (t := S2048x33) (s₁ := S2048x32) (s₂ := S2048x1) (1 : Fin 2) _ _ _
    (ix2 P (Fin.castSucc j)) rfl (ix2 P j) (fun b => by match b with | ⟨0, _⟩ => rfl | ⟨1, _⟩ => rfl), truncf_apply]
  exact concatenate_pair_apply_left (t := S2048x32) (s₁ := S1024x32) (s₂ := S1024x32) (0 : Fin 2) _ _ _
    (ix2 P j) rfl (ix2 p j) (fun b => by match b with | ⟨0, _⟩ => exact hP.symm | ⟨1, _⟩ => rfl)

/-- Rows 1024…2047 of the stacked input, in the first 32 columns, are the second input's rows. -/
theorem stack_bot (v0 v1 : Vec Ideal S1024x32 .f32) (P : Fin 2048) (p : Fin 1024) (hP : P.val = 1024 + p.val) (j : Fin 32) :
    stack v0 v1 (ix2 P (Fin.castSucc j)) = v1 (ix2 p j) := by
  unfold stack
  rw [concatenate_pair_apply_left (t := S2048x33) (s₁ := S2048x32) (s₂ := S2048x1) (1 : Fin 2) _ _ _
    (ix2 P (Fin.castSucc j)) rfl (ix2 P j) (fun b => by match b with | ⟨0, _⟩ => rfl | ⟨1, _⟩ => rfl), truncf_apply]
  exact concatenate_pair_apply_right (t := S2048x32) (s₁ := S1024x32) (s₂ := S1024x32) (0 : Fin 2) _ _ _
    (ix2 P j) rfl rfl (ix2 p j) (fun b hb => by
      match b, hb with
      | ⟨0, _⟩, hb => exact absurd rfl hb
      | ⟨1, _⟩, _ => rfl) (by show p.val + 1024 = P.val; omega)

/-- The last column of the stacked input is one. -/
theorem stack_one (v0 v1 : Vec Ideal S1024x32 .f32) (P : Fin 2048) :
    stack v0 v1 (ix2 P (Fin.last 32)) = 1 := by
  unfold stack
  rw [concatenate_pair_apply_right (t := S2048x33) (s₁ := S2048x32) (s₂ := S2048x1) (1 : Fin 2) _ _ _
    (ix2 P (Fin.last 32)) rfl rfl (ix2 P 0) (fun b hb => by
      match b, hb with
      | ⟨0, _⟩, _ => rfl
      | ⟨1, _⟩, hb => exact absurd rfl hb) (by show 0 + 32 = 32; rfl), broadcast_apply]
  exact Ideal.ofBits_one_bf16

/-! ## The packed accumulator -/

/-- Columns 0…31 of the packed accumulator: the clamped upper half. -/
theorem pack_left (a : FVec Ideal S2048x32 .f32) (p : Fin 1024) (P : Fin 2048) (hP : P.val = p.val) (j : Fin 32) :
    pack a (ix2 p (Fin.castSucc (Fin.castAdd 32 j))) = max (a (ix2 P j)) 0 := by
  unfold pack
  rw [truncf_apply, concatenate_apply_piece (t := S1024x65) (1 : Fin 2) _ _ (ix2 p (Fin.castSucc (Fin.castAdd 32 j)))
    0 (by show 0 < 3; omega) S1024x32 _ rfl rfl 0 rfl (ix2 p j) (fun b hb => by
      match b, hb with
      | ⟨0, _⟩, _ => rfl
      | ⟨1, _⟩, hb => exact absurd rfl hb) (by show 0 + j.val = j.val; omega),
    extractStridedSlice_apply ![0, 0] _ slices_S2048x32_o0_0_S1024x32 (ix2 p j) (ix2 P j) (fun b => by
      match b with
      | ⟨0, _⟩ => show P.val = 0 + p.val; omega
      | ⟨1, _⟩ => show j.val = 0 + j.val; omega),
    maximumf_apply, broadcast_apply]
  exact congrArg (max _) Ideal.ofBits_zero_f32

/-- Columns 32…63 of the packed accumulator: the clamped lower half. -/
theorem pack_right (a : FVec Ideal S2048x32 .f32) (p : Fin 1024) (P : Fin 2048) (hP : P.val = 1024 + p.val) (j : Fin 32) :
    pack a (ix2 p (Fin.castSucc (Fin.natAdd 32 j))) = max (a (ix2 P j)) 0 := by
  unfold pack
  rw [truncf_apply, concatenate_apply_piece (t := S1024x65) (1 : Fin 2) _ _ (ix2 p (Fin.castSucc (Fin.natAdd 32 j)))
    1 (by show 1 < 3; omega) S1024x32 _ rfl rfl 32 rfl (ix2 p j) (fun b hb => by
      match b, hb with
      | ⟨0, _⟩, _ => rfl
      | ⟨1, _⟩, hb => exact absurd rfl hb) (by show 32 + j.val = 32 + j.val; rfl),
    extractStridedSlice_apply ![1024, 0] _ slices_S2048x32_o1024_0_S1024x32 (ix2 p j) (ix2 P j) (fun b => by
      match b with
      | ⟨0, _⟩ => show P.val = 1024 + p.val; omega
      | ⟨1, _⟩ => show j.val = 0 + j.val; omega),
    maximumf_apply, broadcast_apply]
  exact congrArg (max _) Ideal.ofBits_zero_f32

/-- The last column of the packed accumulator is one. -/
theorem pack_one (a : FVec Ideal S2048x32 .f32) (p : Fin 1024) :
    pack a (ix2 p (Fin.last 64)) = 1 := by
  unfold pack
  rw [truncf_apply, concatenate_apply_piece (t := S1024x65) (1 : Fin 2) _ _ (ix2 p (Fin.last 64))
    2 (by show 2 < 3; omega) S1024x1 _ rfl rfl 64 rfl (ix2 p 0) (fun b hb => by
      match b, hb with
      | ⟨0, _⟩, _ => rfl
      | ⟨1, _⟩, hb => exact absurd rfl hb) (by show 64 + 0 = 64; rfl),
    broadcast_apply]
  exact Ideal.ofBits_one_f32

end Cert.KernelIdeal.Body

end
-- ==== Proof.StepsEq.lean ====
/-
  The printed body is the composition of named steps.

  The output block's two stores are the two streams' results. Unfolding the body's positional cuts on one side and
  the named steps on the other leaves one and the same expression in the primitive vector operations.
-/
import proofs.«151286_g11802570129985_cont_fleet_79_24_alg».proof.Proof.Steps

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

set_option maxHeartbeats 4000000 in
/-- The output block after the body: the second stream's store through rows 1024…2047, the first stream's through
    rows 0…1023. -/
theorem out_eq (x0 x1 : Vec F S2048x32 .f32) (x2 : Vec F S33x4096 .bf16) (x3 : Vec F S4096x32 .bf16) (x4 : Vec F S1x32 .f32)
    (x5 : Vec F S65x4096 .bf16) (x6 : Vec F S4096x128 .bf16) (x7 : Vec F S1x128 .f32) :
    out0_8 x0 x1 x2 x3 x4 x5 x6 x7
      = View.canon [⟨r0_69, stream (View.ld x0 r0_1) (View.ld x1 r0_1) x2 x3 x4 x5 x6 x7⟩,
                    ⟨r0_68, stream (View.ld x0 r0_0) (View.ld x1 r0_0) x2 x3 x4 x5 x6 x7⟩] := by
  unfold out0_8 stream chain34 chain12
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, pack, stack, step12, step34, hid12, hid34, bias12, bias34]

end Cert.KernelIdeal.Body

end
-- ==== Proof.Spec.lean ====
/-
  The function both programs compute, index by index over the extended reals.

  One network `emb` (a linear layer 32 → 4096 with bias and a clamp at zero, then a linear layer 4096 → 32 with bias
  and a clamp at zero) is applied to a row of `state` and to the same row of `next_state`; the two 32-vectors, laid
  side by side, go through a linear layer 64 → 4096 with bias and a clamp at zero and a last linear layer
  4096 → 128 with bias. Every array is a function of its index; a sum is a sum over a finite index type in the
  commutative monoid of extended reals, so no order of summation is part of the definition.
-/
import Idealize.ShloMosaic.PureOps.Ideal
import Idealize.ShloMosaic.Lib.ValueIdx

noncomputable section

namespace Cert.Spec

open Idealize.ShloMosaic Idealize.ShloMosaic.ValueIdx

/-- A matrix of extended reals with `n0` rows and `n1` columns, as a function of its index. -/
abbrev Mat (n0 n1 : Nat) : Type := (⟨2, ![n0, n1]⟩ : Shape).Idx → EReal
/-- A vector of extended reals of length `n`, as a function of its index. -/
abbrev Arr (n : Nat) : Type := (⟨1, ![n]⟩ : Shape).Idx → EReal

/-- Hidden unit `k` of the first layer on the input row `x`: `max (x · W1[:, k] + b1[k]) 0`. -/
def hid (x : Fin 32 → EReal) (W1 : Mat 32 4096) (b1 : Arr 4096) (k : Fin 4096) : EReal :=
  max (∑ j : Fin 32, x j * W1 (ix2 j k) + b1 (ix1 k)) 0

/-- Component `q` of the network's output on the input row `x`: `max (hid x · W2[:, q] + b2[q]) 0`. -/
def emb (x : Fin 32 → EReal) (W1 : Mat 32 4096) (b1 : Arr 4096) (W2 : Mat 4096 32) (b2 : Arr 32) (q : Fin 32) : EReal :=
  max (∑ k : Fin 4096, hid x W1 b1 k * W2 (ix2 k q) + b2 (ix1 q)) 0

/-- Hidden unit `k` of the third layer on the pair `(u, v)` laid side by side: the first 32 rows of `W3` meet
    `u`, the last 32 meet `v`. -/
def pair (u v : Fin 32 → EReal) (W3 : Mat 64 4096) (b3 : Arr 4096) (k : Fin 4096) : EReal :=
  max (∑ j : Fin 32, u j * W3 (ix2 (Fin.castAdd 32 j) k) + ∑ j : Fin 32, v j * W3 (ix2 (Fin.natAdd 32 j) k) + b3 (ix1 k)) 0

/-- Component `q` of the result for one row `x` of `state` and the same row `y` of `next_state`. -/
def out (x y : Fin 32 → EReal) (W1 : Mat 32 4096) (b1 : Arr 4096) (W2 : Mat 4096 32) (b2 : Arr 32)
    (W3 : Mat 64 4096) (b3 : Arr 4096) (W4 : Mat 4096 128) (b4 : Arr 128) (q : Fin 128) : EReal :=
  ∑ k : Fin 4096, pair (emb x W1 b1 W2 b2) (emb y W1 b1 W2 b2) W3 b3 k * W4 (ix2 k q) + b4 (ix1 q)

/-- The whole result array: row `i 0`, column `i 1`. -/
def G (S N : Mat 16384 32) (W1 : Mat 32 4096) (b1 : Arr 4096) (W2 : Mat 4096 32) (b2 : Arr 32)
    (W3 : Mat 64 4096) (b3 : Arr 4096) (W4 : Mat 4096 128) (b4 : Arr 128) : Mat 16384 128 :=
  fun i => out (fun j => S (ix2 (i 0) j)) (fun j => N (ix2 (i 0) j)) W1 b1 W2 b2 W3 b3 W4 b4 (i 1)

/-! ## A weight matrix with its bias appended as a last row -/

/-- All rows but the last. -/
def top {n : Nat} (w : Mat (n + 1) 4096) : Mat n 4096 := fun i => w (ix2 (Fin.castSucc (i 0)) (i 1))
/-- The last row. -/
def lastRow {n : Nat} (w : Mat (n + 1) 4096) : Arr 4096 := fun i => w (ix2 (Fin.last n) (i 0))
/-- The one row of a one-row matrix. -/
def row0 {n : Nat} (b : Mat 1 n) : Arr n := fun i => b (ix2 0 (i 0))

end Cert.Spec

end
-- ==== Proof.Body.lean ====
/-
  What the kernel body leaves in its output block.

  The sixteen slices' runs make up a layer's whole 4096-term sum, so the second layer's accumulator at an entry is
  the specification's `emb` before its clamp, and the last layer's is the specification's `out`. The stacked
  input's column of ones meets the bias row appended under the first layer's weights, the packed accumulator's
  column of ones meets the bias row under the third layer's: `1 * b = b`, and a 33- or 65-term sum splits into its
  32-term parts and that last term. Rows 0…1023 of the block are the first stream's store, rows 1024…2047 the
  second's; stream `s` reads rows `1024 s …` of both input blocks.
-/
import proofs.«151286_g11802570129985_cont_fleet_79_24_alg».proof.Proof.Pieces
import proofs.«151286_g11802570129985_cont_fleet_79_24_alg».proof.Proof.StepsEq
import proofs.«151286_g11802570129985_cont_fleet_79_24_alg».proof.Proof.Spec

noncomputable section

namespace Cert.KernelIdeal.Body

open Cert.KernelIdeal Cert.KernelIdeal.Gen Idealize.ShloMosaic Idealize.ShloMosaic.TcCoe Idealize.SL.Sem Idealize.ShloMosaic.ValueIdx

/-- The second layer's accumulator at `(p, q)`, when row `p` of the stacked input is `xrow` followed by one: the whole
    4096-term sum of the specification's hidden units times the second layer's weights, plus the bias. -/
theorem chain12_apply (X : FVec Ideal S2048x33 .bf16) (x2 : Vec Ideal S33x4096 .bf16) (x3 : Vec Ideal S4096x32 .bf16)
    (x4 : Vec Ideal S1x32 .f32) (p : Fin 2048) (q : Fin 32) (xrow : Fin 32 → EReal)
    (hX : ∀ j : Fin 32, X (ix2 p (Fin.castSucc j)) = xrow j) (h1 : X (ix2 p (Fin.last 32)) = 1) :
    chain12 X x2 x3 x4 (ix2 p q)
      = ∑ K : Fin 4096, Cert.Spec.hid xrow (Cert.Spec.top (n := 32) x2) (Cert.Spec.lastRow (n := 32) x2) K * x3 (ix2 K q)
        + Cert.Spec.row0 x4 (ix1 q) := by
  have hterm : ∀ K : Fin 4096, term12 X x2 x3 p q K
      = Cert.Spec.hid xrow (Cert.Spec.top (n := 32) x2) (Cert.Spec.lastRow (n := 32) x2) K * x3 (ix2 K q) := fun K => by
    unfold term12 Cert.Spec.hid
    rw [Cert.Sums.sum_33, h1, one_mul]
    simp only [hX]
    rfl
  unfold chain12
  simp only [step12_ld]
  rw [Cert.Sums.sum_chunks, bias12_apply, add_comm (x4 (ix2 0 q))]
  simp only [hterm]
  rfl

/-- The last layer's accumulator at `(p, q)`, when row `p` of the packed accumulator is `u`, then `v`, then one. -/
theorem chain34_apply (U : FVec Ideal S1024x65 .bf16) (x5 : Vec Ideal S65x4096 .bf16) (x6 : Vec Ideal S4096x128 .bf16)
    (x7 : Vec Ideal S1x128 .f32) (p : Fin 1024) (q : Fin 128) (u v : Fin 32 → EReal)
    (hu : ∀ j : Fin 32, U (ix2 p (Fin.castSucc (Fin.castAdd 32 j))) = u j)
    (hv : ∀ j : Fin 32, U (ix2 p (Fin.castSucc (Fin.natAdd 32 j))) = v j) (h1 : U (ix2 p (Fin.last 64)) = 1) :
    chain34 U x5 x6 x7 (ix2 p q)
      = ∑ K : Fin 4096, Cert.Spec.pair u v (Cert.Spec.top (n := 64) x5) (Cert.Spec.lastRow (n := 64) x5) K * x6 (ix2 K q)
        + Cert.Spec.row0 x7 (ix1 q) := by
  have hterm : ∀ K : Fin 4096, term34 U x5 x6 p q K
      = Cert.Spec.pair u v (Cert.Spec.top (n := 64) x5) (Cert.Spec.lastRow (n := 64) x5) K * x6 (ix2 K q) := fun K => by
    unfold term34 Cert.Spec.pair
    rw [Cert.Sums.sum_65, h1, one_mul]
    simp only [hu, hv]
    rfl
  unfold chain34
  simp only [step34_ld]
  rw [Cert.Sums.sum_chunks, bias34_apply, add_comm (x7 (ix2 0 q))]
  simp only [hterm]
  rfl

/-- A stream's store at `(p, q)` is the specification's result for row `p` of the stream's two inputs. -/
theorem stream_apply (v0 v1 : Vec Ideal S1024x32 .f32) (x2 : Vec Ideal S33x4096 .bf16) (x3 : Vec Ideal S4096x32 .bf16)
    (x4 : Vec Ideal S1x32 .f32) (x5 : Vec Ideal S65x4096 .bf16) (x6 : Vec Ideal S4096x128 .bf16) (x7 : Vec Ideal S1x128 .f32)
    (p : Fin 1024) (q : Fin 128) :
    stream v0 v1 x2 x3 x4 x5 x6 x7 (ix2 p q)
      = Cert.Spec.out (fun j => v0 (ix2 p j)) (fun j => v1 (ix2 p j)) (Cert.Spec.top (n := 32) x2) (Cert.Spec.lastRow (n := 32) x2) x3
          (Cert.Spec.row0 x4) (Cert.Spec.top (n := 64) x5) (Cert.Spec.lastRow (n := 64) x5) x6 (Cert.Spec.row0 x7) q := by
  have hemb : ∀ (P : Fin 2048) (xrow : Fin 32 → EReal), (∀ j : Fin 32, stack v0 v1 (ix2 P (Fin.castSucc j)) = xrow j) →
      ∀ j : Fin 32, max (chain12 (stack v0 v1) x2 x3 x4 (ix2 P j)) 0
        = Cert.Spec.emb xrow (Cert.Spec.top (n := 32) x2) (Cert.Spec.lastRow (n := 32) x2) x3 (Cert.Spec.row0 x4) j :=
    fun P xrow hX j => by
      rw [chain12_apply _ x2 x3 x4 P j xrow hX (stack_one v0 v1 P)]
      rfl
  have hp : p.val < 2048 := by have := p.isLt; omega
  have hp' : 1024 + p.val < 2048 := by have := p.isLt; omega
  unfold stream Cert.Spec.out
  exact chain34_apply _ x5 x6 x7 p q _ _
    (fun j => (pack_left _ p ⟨p.val, hp⟩ rfl j).trans (hemb _ _ (fun i => stack_top v0 v1 _ p rfl i) j))
    (fun j => (pack_right _ p ⟨1024 + p.val, hp'⟩ rfl j).trans (hemb _ _ (fun i => stack_bot v0 v1 _ p rfl i) j))
    (pack_one _ p)

variable {Val : EltTy → Type} {e : EltTy}

/-- A load of the rows `o, o + 1, …` and all columns, read at row `a`, is the array's row `R = o + a`. -/
theorem ld_rows_at {n0 n1 s0 : Nat} (X : (⟨2, ![n0, n1]⟩ : Shape).Idx → Val e) (o : Nat)
    (inb : ∀ a, ![o, 0] a + (⟨2, ![s0, n1]⟩ : Shape).size a ≤ (⟨2, ![n0, n1]⟩ : Shape).size a) (a : Fin s0) (b : Fin n1)
    (R : Fin n0) (hR : R.val = o + a.val) :
    View.ld X (Rect.unit (s := ⟨2, ![n0, n1]⟩) ![o, 0] (⟨2, ![s0, n1]⟩ : Shape).size inb) (ix2 a b) = X (ix2 R b) := by
  rw [ld_rows X o inb a b (by have := R.isLt; omega)]
  exact congrArg (fun t => X (ix2 t b)) (Fin.ext hR.symm)

/-- The output block after the body, at row `r` and column `q`: the specification's result for row `r` of the two
    input blocks, with the weight blocks read as weights with their bias rows. -/
theorem body_at (x0 x1 : Vec Ideal S2048x32 .f32) (x2 : Vec Ideal S33x4096 .bf16) (x3 : Vec Ideal S4096x32 .bf16) (x4 : Vec Ideal S1x32 .f32)
    (x5 : Vec Ideal S65x4096 .bf16) (x6 : Vec Ideal S4096x128 .bf16) (x7 : Vec Ideal S1x128 .f32) (r : Fin 2048) (q : Fin 128) :
    out0_8 (F := Ideal) x0 x1 x2 x3 x4 x5 x6 x7 (ix2 r q)
      = Cert.Spec.out (fun j => x0 (ix2 r j)) (fun j => x1 (ix2 r j)) (Cert.Spec.top (n := 32) x2) (Cert.Spec.lastRow (n := 32) x2) x3
          (Cert.Spec.row0 x4) (Cert.Spec.top (n := 64) x5) (Cert.Spec.lastRow (n := 64) x5) x6 (Cert.Spec.row0 x7) q := by
  refine (congrFun (out_eq x0 x1 x2 x3 x4 x5 x6 x7) (ix2 r q)).trans ?_
  have hs1 := stream_apply (View.ld x0 r0_1) (View.ld x1 r0_1) x2 x3 x4 x5 x6 x7
  have hs0 := stream_apply (View.ld x0 r0_0) (View.ld x1 r0_0) x2 x3 x4 x5 x6 x7
  generalize stream (View.ld x0 r0_1) (View.ld x1 r0_1) x2 x3 x4 x5 x6 x7 = s1 at hs1 ⊢
  generalize stream (View.ld x0 r0_0) (View.ld x1 r0_0) x2 x3 x4 x5 x6 x7 = s0 at hs0 ⊢
  by_cases hr : r.val < 1024
  · -- the first stream's rows: the earlier store
    have hnot : ix2 r q ∉ (r0_69 : Rect S2048x128).set := fun h => by
      have h0 := (Rect.mem_set_unit.mp h) 0
      have : 1024 ≤ r.val := h0.1
      omega
    have e : (ix2 r q : S2048x128.Idx) = (r0_68 : Rect S2048x128).emb (ix2 ⟨r.val, hr⟩ q) := funext fun a => Fin.ext (by
      match a with
      | ⟨0, _⟩ => show r.val = 0 + 1 * r.val; omega
      | ⟨1, _⟩ => show q.val = 0 + 1 * q.val; omega)
    have e0 : ∀ j : Fin 32, View.ld x0 r0_0 (ix2 ⟨r.val, hr⟩ j) = x0 (ix2 r j) := fun j =>
      ld_rows_at (Val := Elt Ideal) x0 0 _ _ j r (by show r.val = 0 + r.val; omega)
    have e1 : ∀ j : Fin 32, View.ld x1 r0_0 (ix2 ⟨r.val, hr⟩ j) = x1 (ix2 r j) := fun j =>
      ld_rows_at (Val := Elt Ideal) x1 0 _ _ j r (by show r.val = 0 + r.val; omega)
    refine (View.canon_cons_of_not_mem (⟨r0_69, s1⟩ : View.Piece (Elt Ideal) S2048x128 .f32) [⟨r0_68, s0⟩] hnot).trans ?_
    refine (congrArg (View.canon [(⟨r0_68, s0⟩ : View.Piece (Elt Ideal) S2048x128 .f32)]) e).trans ?_
    refine (View.canon_cons_emb (Val := Elt Ideal) (e := .f32) (r0_68 : Rect S2048x128) s0 [] (ix2 ⟨r.val, hr⟩ q)).trans ?_
    refine (hs0 ⟨r.val, hr⟩ q).trans ?_
    simp only [e0, e1]
  · -- the second stream's rows: the last store
    have hr' : r.val - 1024 < 1024 := by have := r.isLt; omega
    have e : (ix2 r q : S2048x128.Idx) = (r0_69 : Rect S2048x128).emb (ix2 ⟨r.val - 1024, hr'⟩ q) := funext fun a => Fin.ext (by
      match a with
      | ⟨0, _⟩ => show r.val = 1024 + 1 * (r.val - 1024); omega
      | ⟨1, _⟩ => show q.val = 0 + 1 * q.val; omega)
    have e0 : ∀ j : Fin 32, View.ld x0 r0_1 (ix2 ⟨r.val - 1024, hr'⟩ j) = x0 (ix2 r j) := fun j =>
      ld_rows_at (Val := Elt Ideal) x0 1024 _ _ j r (by show r.val = 1024 + (r.val - 1024); omega)
    have e1 : ∀ j : Fin 32, View.ld x1 r0_1 (ix2 ⟨r.val - 1024, hr'⟩ j) = x1 (ix2 r j) := fun j =>
      ld_rows_at (Val := Elt Ideal) x1 1024 _ _ j r (by show r.val = 1024 + (r.val - 1024); omega)
    refine (congrArg (View.canon [(⟨r0_69, s1⟩ : View.Piece (Elt Ideal) S2048x128 .f32), ⟨r0_68, s0⟩]) e).trans ?_
    refine (View.canon_cons_emb (Val := Elt Ideal) (e := .f32) (r0_69 : Rect S2048x128) s1 [(⟨r0_68, s0⟩ : View.Piece (Elt Ideal) S2048x128 .f32)] (ix2 ⟨r.val - 1024, hr'⟩ q)).trans ?_
    refine (hs1 ⟨r.val - 1024, hr'⟩ q).trans ?_
    simp only [e0, e1]

end Cert.KernelIdeal.Body

end
-- ==== Proof.Blocks.lean ====
/-
  From the kernel body's output block to the whole result array, and the kernel's run.

  The kernel runs over a grid of 8 points. At point `t` its output window holds rows `2048 t … 2048 t + 2047` and
  all 128 columns of the 16384 × 128 result; its first two input windows hold the same rows of `state` and of
  `next_state`; its other six input windows hold, at every point, the whole of an array the host operations
  wrote before the region: `W1` with `b1` appended as a last row, `W2`, `b2` as one row, `W3` with `b3` appended
  as a last row, `W4`, `b4` as one row (over the extended reals a change of float format is the identity).
  Given what the body leaves in its output block as a function of its input blocks (`BodyAt`), each point
  writes back its block of the specification `Cert.Spec.G` of the argument arrays; the 8 blocks tile the result
  array, so the array ends holding `Cert.Spec.G` of the arguments.
-/
import proofs.«151286_g11802570129985_cont_fleet_79_24_alg».proof.Proof.Gen.KernelIdeal.Value
import proofs.«151286_g11802570129985_cont_fleet_79_24_alg».proof.Proof.Spec
import Idealize.ShloMosaic.Lib.Pipeline.Value
import Idealize.ShloMosaic.Lib.StableHlo.Run
import Idealize.ShloMosaic.Lib.ValueIdx

noncomputable section
namespace Cert.KernelIdeal.Blocks
open Cert.KernelIdeal Cert.KernelIdeal.Gen Idealize.ShloMosaic Idealize.ShloMosaic.TcCoe Idealize.SL.Sem Idealize.ShloMosaic.ValueIdx

/-- What the kernel body leaves in its output block, at row `r` and column `q` of the block. -/
def BodyAt : Prop :=
  ∀ (x0 x1 : Vec Ideal S2048x32 .f32) (x2 : Vec Ideal S33x4096 .bf16) (x3 : Vec Ideal S4096x32 .bf16) (x4 : Vec Ideal S1x32 .f32)
    (x5 : Vec Ideal S65x4096 .bf16) (x6 : Vec Ideal S4096x128 .bf16) (x7 : Vec Ideal S1x128 .f32) (r : Fin 2048) (q : Fin 128),
    out0_8 (F := Ideal) x0 x1 x2 x3 x4 x5 x6 x7 (ix2 r q)
      = Cert.Spec.out (fun j => x0 (ix2 r j)) (fun j => x1 (ix2 r j)) (Cert.Spec.top (n := 32) x2) (Cert.Spec.lastRow (n := 32) x2) x3
          (Cert.Spec.row0 x4) (Cert.Spec.top (n := 64) x5) (Cert.Spec.lastRow (n := 64) x5) x6 (Cert.Spec.row0 x7) q

variable (m : (ℓ : Loc nD τ sig) → Buf (Elt Ideal) ℓ)

/-! ## The index maps over the grid -/

/-- At grid point `t` the output window and the two row windows sit at block row `t`, block column 0; the six
    weight and bias windows sit at block (0, 0) at every point (decided over the 8 points). -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the host operations stage for the weight and bias windows

  Over the extended reals a change of float format is the identity, so each staged array is a re-laying of
  the arguments: a weight matrix with its bias appended as a last row, a weight matrix itself, a bias as one row. -/

/-- The array window 2 stages holds `W1` on its first 32 rows. -/
theorem v2_top (c : Dev nD) (j : Fin 32) (k : Fin 4096) :
    (V m c main_v2 : S33x4096.Idx → EReal) (ix2 (Fin.castSucc j) k)
      = (m ((c : Thread nD τ).loc main_arg2) : S32x4096.Idx → EReal) (ix2 j k) := by
  have e : (V m c main_v2 : S33x4096.Idx → EReal)
      = truncf (F := Ideal) .bf16 (concatenate S33x4096 0
          [⟨S32x4096, (m ((c : Thread nD τ).loc main_arg2) : S32x4096.Idx → EReal)⟩,
           ⟨S1x4096, broadcastInDim S1x4096 ![1] bcast_S4096_S1x4096_1 (m ((c : Thread nD τ).loc main_arg3) : S4096.Idx → EReal)⟩]
          concatenates_S32x4096_S1x4096_S33x4096_d0) bitsLt_bf16_f32 := by
    dsimp only [Gen.V, Gen.hostOps0]; after_results
  rw [e, truncf_apply]
  exact concatenate_pair_apply_left (t := S33x4096) (s₁ := S32x4096) (s₂ := S1x4096) (0 : Fin 2) _ _ _
    (ix2 (Fin.castSucc j) k : S33x4096.Idx) rfl (ix2 j k : S32x4096.Idx)
    (fun b => by match b with | ⟨0, _⟩ => rfl | ⟨1, _⟩ => rfl)

/-- The array window 2 stages holds `b1` on its last row. -/
theorem v2_last (c : Dev nD) (k : Fin 4096) :
    (V m c main_v2 : S33x4096.Idx → EReal) (ix2 (Fin.last 32) k)
      = (m ((c : Thread nD τ).loc main_arg3) : S4096.Idx → EReal) (ix1 k) := by
  have e : (V m c main_v2 : S33x4096.Idx → EReal)
      = truncf (F := Ideal) .bf16 (concatenate S33x4096 0
          [⟨S32x4096, (m ((c : Thread nD τ).loc main_arg2) : S32x4096.Idx → EReal)⟩,
           ⟨S1x4096, broadcastInDim S1x4096 ![1] bcast_S4096_S1x4096_1 (m ((c : Thread nD τ).loc main_arg3) : S4096.Idx → EReal)⟩]
          concatenates_S32x4096_S1x4096_S33x4096_d0) bitsLt_bf16_f32 := by
    dsimp only [Gen.V, Gen.hostOps0]; after_results
  rw [e, truncf_apply]
  refine (concatenate_pair_apply_right (t := S33x4096) (s₁ := S32x4096) (s₂ := S1x4096) (0 : Fin 2) _ _ _
    (ix2 (Fin.last 32) k : S33x4096.Idx) rfl rfl (ix2 (0 : Fin 1) k : S1x4096.Idx) ?_ ?_).trans ?_
  · intro b hb; match b with | ⟨0, _⟩ => exact absurd rfl hb | ⟨1, _⟩ => rfl
  · rfl
  · exact broadcastInDim_apply (s := S4096) (t := S1x4096) _ _ _ _ (ix1 k : S4096.Idx) (fun a => by match a with | ⟨0, _⟩ => rfl)

/-- The array window 5 stages holds `W3` on its first 64 rows. -/
theorem v5_top (c : Dev nD) (j : Fin 64) (k : Fin 4096) :
    (V m c main_v5 : S65x4096.Idx → EReal) (ix2 (Fin.castSucc j) k)
      = (m ((c : Thread nD τ).loc main_arg6) : S64x4096.Idx → EReal) (ix2 j k) := by
  have e : (V m c main_v5 : S65x4096.Idx → EReal)
      = truncf (F := Ideal) .bf16 (concatenate S65x4096 0
          [⟨S64x4096, (m ((c : Thread nD τ).loc main_arg6) : S64x4096.Idx → EReal)⟩,
           ⟨S1x4096, broadcastInDim S1x4096 ![1] bcast_S4096_S1x4096_1 (m ((c : Thread nD τ).loc main_arg7) : S4096.Idx → EReal)⟩]
          concatenates_S64x4096_S1x4096_S65x4096_d0) bitsLt_bf16_f32 := by
    dsimp only [Gen.V, Gen.hostOps0]; after_results
  rw [e, truncf_apply]
  exact concatenate_pair_apply_left (t := S65x4096) (s₁ := S64x4096) (s₂ := S1x4096) (0 : Fin 2) _ _ _
    (ix2 (Fin.castSucc j) k : S65x4096.Idx) rfl (ix2 j k : S64x4096.Idx)
    (fun b => by match b with | ⟨0, _⟩ => rfl | ⟨1, _⟩ => rfl)

/-- The array window 5 stages holds `b3` on its last row. -/
theorem v5_last (c : Dev nD) (k : Fin 4096) :
    (V m c main_v5 : S65x4096.Idx → EReal) (ix2 (Fin.last 64) k)
      = (m ((c : Thread nD τ).loc main_arg7) : S4096.Idx → EReal) (ix1 k) := by
  have e : (V m c main_v5 : S65x4096.Idx → EReal)
      = truncf (F := Ideal) .bf16 (concatenate S65x4096 0
          [⟨S64x4096, (m ((c : Thread nD τ).loc main_arg6) : S64x4096.Idx → EReal)⟩,
           ⟨S1x4096, broadcastInDim S1x4096 ![1] bcast_S4096_S1x4096_1 (m ((c : Thread nD τ).loc main_arg7) : S4096.Idx → EReal)⟩]
          concatenates_S64x4096_S1x4096_S65x4096_d0) bitsLt_bf16_f32 := by
    dsimp only [Gen.V, Gen.hostOps0]; after_results
  rw [e, truncf_apply]
  refine (concatenate_pair_apply_right (t := S65x4096) (s₁ := S64x4096) (s₂ := S1x4096) (0 : Fin 2) _ _ _
    (ix2 (Fin.last 64) k : S65x4096.Idx) rfl rfl (ix2 (0 : Fin 1) k : S1x4096.Idx) ?_ ?_).trans ?_
  · intro b hb; match b with | ⟨0, _⟩ => exact absurd rfl hb | ⟨1, _⟩ => rfl
  · rfl
  · exact broadcastInDim_apply (s := S4096) (t := S1x4096) _ _ _ _ (ix1 k : S4096.Idx) (fun a => by match a with | ⟨0, _⟩ => rfl)

/-- The array window 3 stages is `W2`. -/
theorem v6_eq (c : Dev nD) :
    (V m c main_v6 : S4096x32.Idx → EReal) = (m ((c : Thread nD τ).loc main_arg4) : S4096x32.Idx → EReal) := by
  dsimp only [Gen.V, Gen.hostOps0]; after_results; rfl

/-- The array window 6 stages is `W4`. -/
theorem v8_eq (c : Dev nD) :
    (V m c main_v8 : S4096x128.Idx → EReal) = (m ((c : Thread nD τ).loc main_arg8) : S4096x128.Idx → EReal) := by
  dsimp only [Gen.V, Gen.hostOps0]; after_results; rfl

/-- The array window 4 stages holds `b2` as its one row. -/
theorem v7_row (c : Dev nD) (k : Fin 32) :
    (V m c main_v7 : S1x32.Idx → EReal) (ix2 (0 : Fin 1) k)
      = (m ((c : Thread nD τ).loc main_arg5) : S32.Idx → EReal) (ix1 k) := by
  have e : (V m c main_v7 : S1x32.Idx → EReal)
      = shapeCast S1x32 (m ((c : Thread nD τ).loc main_arg5) : S32.Idx → EReal) shapeCasts_S32_S1x32 := by
    dsimp only [Gen.V, Gen.hostOps0]; after_results; rfl
  rw [e]
  exact shapeCast_apply (s := S32) (t := S1x32) _ _ _ (ix1 k : S32.Idx) (by rw [Shape.rowMajor_val_two, Shape.rowMajor_val_one]; simp)

/-- The array window 7 stages holds `b4` as its one row. -/
theorem v9_row (c : Dev nD) (k : Fin 128) :
    (V m c main_v9 : S1x128.Idx → EReal) (ix2 (0 : Fin 1) k)
      = (m ((c : Thread nD τ).loc main_arg9) : S128.Idx → EReal) (ix1 k) := by
  have e : (V m c main_v9 : S1x128.Idx → EReal)
      = shapeCast S1x128 (m ((c : Thread nD τ).loc main_arg9) : S128.Idx → EReal) shapeCasts_S128_S1x128 := by
    dsimp only [Gen.V, Gen.hostOps0]; after_results; rfl
  rw [e]
  exact shapeCast_apply (s := S128) (t := S1x128) _ _ _ (ix1 k : S128.Idx) (by rw [Shape.rowMajor_val_two, Shape.rowMajor_val_one]; simp)

/-! ## The input windows' blocks at a grid point -/

/-- Row `y 0` of window 0's block at point `t` is row `2048 t + y 0` of `state`. -/
theorem blk0_at (c : Dev nD) (t : Fin cfg0.N) (y : S2048x32.Idx) (i : S16384x32.Idx)
    (h0 : (i 0).val = t.val * 2048 + (y 0).val) (h1 : (i 1).val = (y 1).val) :
    (iblk m c 0 t : Vec Ideal S2048x32 .f32) y = (m ((c : Thread nD τ).loc main_arg0) : S16384x32.Idx → EReal) i := by
  obtain ⟨-, -, e0, e1, -⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 32 + 1 * (y 1).val = (i 1).val; rw [e1, h1]; omega

/-- Row `y 0` of window 1's block at point `t` is row `2048 t + y 0` of `next_state`. -/
theorem blk1_at (c : Dev nD) (t : Fin cfg0.N) (y : S2048x32.Idx) (i : S16384x32.Idx)
    (h0 : (i 0).val = t.val * 2048 + (y 0).val) (h1 : (i 1).val = (y 1).val) :
    (iblk m c 1 t : Vec Ideal S2048x32 .f32) y = (m ((c : Thread nD τ).loc main_arg1) : S16384x32.Idx → EReal) i := by
  obtain ⟨-, -, -, -, e0, e1, -⟩ := idx_facts t
  show V m c main_arg1 (((cfg0.win 1).blk t).view.emb y) = _
  rw [V_main_arg1]
  refine congrArg _ (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 32 + 1 * (y 1).val = (i 1).val; rw [e1, h1]; omega

/-- Window 2's block at every point is the whole array it stages. -/
theorem blk2_eq (c : Dev nD) (t : Fin cfg0.N) :
    (iblk m c 2 t : Vec Ideal S33x4096 .bf16) = (V m c main_v2 : S33x4096.Idx → EReal) := by
  obtain ⟨-, -, -, -, -, -, e0, e1, -⟩ := idx_facts t
  funext y
  show V m c main_v2 (((cfg0.win 2).blk t).view.emb y) = _
  refine congrArg _ (funext fun a => Fin.ext ?_)
  match a with
  | ⟨0, _⟩ => show win0_2.index t (0 : Fin 2) * 33 + 1 * (y 0).val = (y 0).val; rw [e0]; omega
  | ⟨1, _⟩ => show win0_2.index t (1 : Fin 2) * 4096 + 1 * (y 1).val = (y 1).val; rw [e1]; omega

/-- Window 3's block at every point is the whole array it stages. -/
theorem blk3_eq (c : Dev nD) (t : Fin cfg0.N) :
    (iblk m c 3 t : Vec Ideal S4096x32 .bf16) = (V m c main_v6 : S4096x32.Idx → EReal) := by
  obtain ⟨-, -, -, -, -, -, -, -, e0, e1, -⟩ := idx_facts t
  funext y
  show V m c main_v6 (((cfg0.win 3).blk t).view.emb y) = _
  refine congrArg _ (funext fun a => Fin.ext ?_)
  match a with
  | ⟨0, _⟩ => show win0_3.index t (0 : Fin 2) * 4096 + 1 * (y 0).val = (y 0).val; rw [e0]; omega
  | ⟨1, _⟩ => show win0_3.index t (1 : Fin 2) * 32 + 1 * (y 1).val = (y 1).val; rw [e1]; omega

/-- Window 4's block at every point is the whole array it stages. -/
theorem blk4_eq (c : Dev nD) (t : Fin cfg0.N) :
    (iblk m c 4 t : Vec Ideal S1x32 .f32) = (V m c main_v7 : S1x32.Idx → EReal) := by
  obtain ⟨-, -, -, -, -, -, -, -, -, -, e0, e1, -⟩ := idx_facts t
  funext y
  show V m c main_v7 (((cfg0.win 4).blk t).view.emb y) = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-- Window 5's block at every point is the whole array it stages. -/
theorem blk5_eq (c : Dev nD) (t : Fin cfg0.N) :
    (iblk m c 5 t : Vec Ideal S65x4096 .bf16) = (V m c main_v5 : S65x4096.Idx → EReal) := by
  obtain ⟨-, -, -, -, -, -, -, -, -, -, -, -, e0, e1, -⟩ := idx_facts t
  funext y
  show V m c main_v5 (((cfg0.win 5).blk t).view.emb y) = _
  refine congrArg _ (funext fun a => Fin.ext ?_)
  match a with
  | ⟨0, _⟩ => show win0_5.index t (0 : Fin 2) * 65 + 1 * (y 0).val = (y 0).val; rw [e0]; omega
  | ⟨1, _⟩ => show win0_5.index t (1 : Fin 2) * 4096 + 1 * (y 1).val = (y 1).val; rw [e1]; omega

/-- Window 6's block at every point is the whole array it stages. -/
theorem blk6_eq (c : Dev nD) (t : Fin cfg0.N) :
    (iblk m c 6 t : Vec Ideal S4096x128 .bf16) = (V m c main_v8 : S4096x128.Idx → EReal) := by
  obtain ⟨-, -, -, -, -, -, -, -, -, -, -, -, -, -, e0, e1, -⟩ := idx_facts t
  funext y
  show V m c main_v8 (((cfg0.win 6).blk t).view.emb y) = _
  refine congrArg _ (funext fun a => Fin.ext ?_)
  match a with
  | ⟨0, _⟩ => show win0_6.index t (0 : Fin 2) * 4096 + 1 * (y 0).val = (y 0).val; rw [e0]; omega
  | ⟨1, _⟩ => show win0_6.index t (1 : Fin 2) * 128 + 1 * (y 1).val = (y 1).val; rw [e1]; omega

/-- Window 7's block at every point is the whole array it stages. -/
theorem blk7_eq (c : Dev nD) (t : Fin cfg0.N) :
    (iblk m c 7 t : Vec Ideal S1x128 .f32) = (V m c main_v9 : S1x128.Idx → EReal) := by
  obtain ⟨-, -, -, -, -, -, -, -, -, -, -, -, -, -, -, -, e0, e1⟩ := idx_facts t
  funext y
  show V m c main_v9 (((cfg0.win 7).blk t).view.emb y) = _
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## What a point writes back -/

/-- The body's output block at row `r`, column `q`, when its blocks of `state` and `next_state` hold row `R` of those
    arrays at row `r` and its weight and bias blocks hold the arguments (a bias appended as a last row, or as the one
    row), is the specification at row `R`, column `q`. -/
theorem out_at (hbody : BodyAt)
    (x0 x1 : Vec Ideal S2048x32 .f32) (x2 : Vec Ideal S33x4096 .bf16) (x3 : Vec Ideal S4096x32 .bf16) (x4 : Vec Ideal S1x32 .f32)
    (x5 : Vec Ideal S65x4096 .bf16) (x6 : Vec Ideal S4096x128 .bf16) (x7 : Vec Ideal S1x128 .f32)
    (A0 A1 : Cert.Spec.Mat 16384 32) (W1 : Cert.Spec.Mat 32 4096) (b1 : Cert.Spec.Arr 4096) (W2 : Cert.Spec.Mat 4096 32)
    (b2 : Cert.Spec.Arr 32) (W3 : Cert.Spec.Mat 64 4096) (b3 : Cert.Spec.Arr 4096) (W4 : Cert.Spec.Mat 4096 128)
    (b4 : Cert.Spec.Arr 128) (r : Fin 2048) (q : Fin 128) (R : Fin 16384)
    (h0 : (fun j : Fin 32 => x0 (ix2 r j)) = fun j => A0 (ix2 R j))
    (h1 : (fun j : Fin 32 => x1 (ix2 r j)) = fun j => A1 (ix2 R j))
    (h2 : Cert.Spec.top (n := 32) x2 = W1) (h2' : Cert.Spec.lastRow (n := 32) x2 = b1) (h3 : x3 = W2)
    (h4 : Cert.Spec.row0 x4 = b2) (h5 : Cert.Spec.top (n := 64) x5 = W3) (h5' : Cert.Spec.lastRow (n := 64) x5 = b3)
    (h6 : x6 = W4) (h7 : Cert.Spec.row0 x7 = b4) :
    out0_8 (F := Ideal) x0 x1 x2 x3 x4 x5 x6 x7 (ix2 r q)
      = Cert.Spec.G A0 A1 W1 b1 W2 b2 W3 b3 W4 b4 (ix2 R q) := by
  rw [hbody, h0, h1, h2, h2', h3, h4, h5, h5', h6, h7]
  rfl

/-- What point `t` writes back is block `t` of the specification of the argument arrays. -/
theorem flushed_eq (hbody : BodyAt) (c : Dev nD) (t : Fin cfg0.N) :
    (dats (F := Ideal) m 0 c).flushed 8 t
      = ((cfg0.win 8).blk t).view.read (Elt Ideal) (Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))) := by
  rw [Value.flushed8]
  obtain ⟨e0, e1, -⟩ := idx_facts t
  funext y
  obtain ⟨r, q, rfl⟩ : ∃ (r : Fin 2048) (q : Fin 128), y = ix2 r q := ⟨y 0, y 1, eq_ix2 y⟩
  have hR : t.val * 2048 + r.val < 16384 := by
    have h8 : cfg0.N = 8 := N_0
    have := t.isLt; have := r.isLt; omega
  have hi : ((cfg0.win 8).blk t).view.emb (ix2 r q)
      = (ix2 (⟨t.val * 2048 + r.val, hR⟩ : Fin 16384) q : S16384x128.Idx) := by
    funext a; apply Fin.ext
    match a with
    | ⟨0, _⟩ => show win0_8.index t (0 : Fin 2) * 2048 + 1 * r.val = t.val * 2048 + r.val; rw [e0]; omega
    | ⟨1, _⟩ => show win0_8.index t (1 : Fin 2) * 128 + 1 * q.val = q.val; rw [e1]; omega
  show out0_8 (F := Ideal) (iblk m c 0 t) (iblk m c 1 t) (iblk m c 2 t) (iblk m c 3 t) (iblk m c 4 t) (iblk m c 5 t)
      (iblk m c 6 t) (iblk m c 7 t) (ix2 r q)
    = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (((cfg0.win 8).blk t).view.emb (ix2 r q))
  rw [hi]
  refine out_at hbody _ _ _ _ _ _ _ _ _ _ _ _ _ _ _ _ _ _ r q ⟨t.val * 2048 + r.val, hR⟩ ?_ ?_ ?_ ?_ ?_ ?_ ?_ ?_ ?_ ?_
  · exact funext fun j => blk0_at m c t (ix2 r j) (ix2 ⟨t.val * 2048 + r.val, hR⟩ j) rfl rfl
  · exact funext fun j => blk1_at m c t (ix2 r j) (ix2 ⟨t.val * 2048 + r.val, hR⟩ j) rfl rfl
  · funext i
    obtain ⟨j, k, rfl⟩ : ∃ (j : Fin 32) (k : Fin 4096), i = ix2 j k := ⟨i 0, i 1, eq_ix2 i⟩
    exact (congrFun (blk2_eq m c t) _).trans (v2_top m c j k)
  · funext i
    obtain ⟨k, rfl⟩ : ∃ k : Fin 4096, i = ix1 k := ⟨i 0, eq_ix1 i⟩
    exact (congrFun (blk2_eq m c t) _).trans (v2_last m c k)
  · exact (blk3_eq m c t).trans (v6_eq m c)
  · funext i
    obtain ⟨k, rfl⟩ : ∃ k : Fin 32, i = ix1 k := ⟨i 0, eq_ix1 i⟩
    exact (congrFun (blk4_eq m c t) _).trans (v7_row m c k)
  · funext i
    obtain ⟨j, k, rfl⟩ : ∃ (j : Fin 64) (k : Fin 4096), i = ix2 j k := ⟨i 0, i 1, eq_ix2 i⟩
    exact (congrFun (blk5_eq m c t) _).trans (v5_top m c j k)
  · funext i
    obtain ⟨k, rfl⟩ : ∃ k : Fin 4096, i = ix1 k := ⟨i 0, eq_ix1 i⟩
    exact (congrFun (blk5_eq m c t) _).trans (v5_last m c k)
  · exact (blk6_eq m c t).trans (v8_eq m c)
  · funext i
    obtain ⟨k, rfl⟩ : ∃ k : Fin 128, i = ix1 k := ⟨i 0, eq_ix1 i⟩
    exact (congrFun (blk7_eq m c t) _).trans (v9_row m c k)

/-! ## The blocks tile the result array -/

/-- An index of the result array is in point `t`'s block iff each coordinate is in the block's range on its axis. -/
theorem mem_blk (t : Fin cfg0.N) (i : S16384x128.Idx) :
    i ∈ ((cfg0.win 8).blk t).view.set
      ↔ ∀ a : Fin 2, win0_8.index t a * S2048x128.size a ≤ (i a).val
          ∧ (i a).val < win0_8.index t a * S2048x128.size a + S2048x128.size a := by
  show i ∈ ((View.whole main_v10).slice (win0_8.rect t)).set ↔ _
  rw [View.set_slice_whole, Rect.mem_set_unit]
  exact Iff.rfl

/-- Every index of the result array is in the block of the point its row falls in: row `R` in point `R / 2048`. -/
theorem cover (i : S16384x128.Idx) :
    ∃ t : Fin cfg0.N, (cfg0.win 8).flush t = true ∧ i ∈ ((cfg0.win 8).blk t).view.set := by
  have h8 : cfg0.N = 8 := N_0
  have hi0 : (i 0).val < 16384 := (i 0).isLt
  have hi1 : (i 1).val < 128 := (i 1).isLt
  have ht : (i 0).val / 2048 < cfg0.N := by rw [h8]; omega
  obtain ⟨e0, e1, -⟩ := idx_facts ⟨(i 0).val / 2048, ht⟩
  refine ⟨⟨(i 0).val / 2048, ht⟩, flush0_8 _, ?_⟩
  rw [mem_blk]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, ht⟩ (1 : Fin 2) * 128 ≤ (i 1).val
      ∧ (i 1).val < win0_8.index ⟨(i 0).val / 2048, ht⟩ (1 : Fin 2) * 128 + 128
    rw [e1]; omega

/-! ## The result array, and the run -/

/-- The result array after the run is the specification of the argument arrays. -/
theorem final (hbody : BodyAt) (c : Dev nD) :
    (dats (F := Ideal) m 0 c).arrAt 8 cfg0.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  (dats (F := Ideal) m 0 c).arrAt_eq_of_cover 8 _ (fun t _ => flushed_eq m hbody c t) cover

/-- The kernel's run: the result array ends at the specification of the argument arrays, the arguments unchanged. -/
theorem run (hbody : BodyAt) (ρ : Dev nD → PrngReg) :
    θ_run defs (onTc (τ := τ) (main (F := Ideal))) ⟨m, fun _ => 0, ρ⟩ fun r => ∀ c : Dev nD,
      r.2.mem ((c : Thread nD τ).loc main_v10) = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m hbody c), (h c).2⟩) (Value.run_blocks m ρ)

end Cert.KernelIdeal.Blocks
end
-- ==== Proof.RefIsG.lean ====
/-
  The reference program computes the specification `Cert.Spec.G`.

  The reference is two copies of one network (a linear layer with bias and a clamp at zero, twice), one on each
  input array, whose two 32-column outputs are laid side by side and sent through a third linear layer with bias
  and a clamp at zero and a last linear layer with bias. Each layer is read at an index (row `p`, column `k`): a
  matrix product is a finite sum over the contracted index, a bias is the vector's entry at the column, the clamp
  is a maximum with zero. The side-by-side array has the first network's output in columns below 32 and the
  second's in columns from 32 on, so the sum over its 64 columns is the sum of two sums over 32 columns. All
  values are extended reals; no step needs finiteness.
-/
import proofs.«151286_g11802570129985_cont_fleet_79_24_alg».proof.Proof.Gen.ReferenceIdeal.Read
import proofs.«151286_g11802570129985_cont_fleet_79_24_alg».proof.Proof.Spec
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo

/-- The first layer at an index: the hidden unit of the specification on the row read off the input array. -/
theorem hid_apply (x : (⟨S16384x32, .f32⟩ : BufTy).Contents (Elt Ideal)) (x2 : (⟨S32x4096, .f32⟩ : BufTy).Contents (Elt Ideal))
    (x3 : (⟨S4096, .f32⟩ : BufTy).Contents (Elt Ideal)) (p : Fin 16384) (k : Fin 4096) :
    val_main_v4 (F := Ideal) x x2 x3 (ix2 p k) = Cert.Spec.hid (fun j => x (ix2 p j)) x2 x3 k := by
  rw [val_main_v4_apply, val_main_v3_apply, val_main_v0_apply, val_main_v2_apply, val_main_v1_apply,
    val_main_call0_v0_apply, val_main_call0_cst_apply]
  have el : ∀ j : Fin 32, lidx_main_v0 (ix2 p k) j = ix2 p j := fun j => funext fun a => Fin.ext (by
    match a with | ⟨0, _⟩ => rfl | ⟨1, _⟩ => rfl)
  have er : ∀ j : Fin 32, ridx_main_v0 (ix2 p k) j = ix2 j k := fun j => funext fun a => Fin.ext (by
    match a with | ⟨0, _⟩ => rfl | ⟨1, _⟩ => rfl)
  have eb : idx_main_v1 (idx_main_v2 (ix2 p k)) = ix1 k := funext fun a => Fin.ext (by
    match a with | ⟨0, _⟩ => rfl)
  simp only [el, er, eb, Ideal.maximumf_def, Ideal.addf_def, Ideal.ofBits_def, Ideal.ofBits_zero_f32]
  rfl

/-- The second layer at an index: a component of the specification's network on that row. -/
theorem emb_apply (x : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (p : Fin 16384) (q : Fin 32) :
    val_main_v9 (F := Ideal) x x2 x3 x4 x5 (ix2 p q) = Cert.Spec.emb (fun j => x (ix2 p j)) x2 x3 x4 x5 q := by
  rw [val_main_v9_apply, val_main_v8_apply, val_main_v5_apply, val_main_v7_apply, val_main_v6_apply,
    val_main_call1_v0_apply, val_main_call1_cst_apply]
  have el : ∀ k : Fin 4096, lidx_main_v5 (ix2 p q) k = ix2 p k := fun k => funext fun a => Fin.ext (by
    match a with | ⟨0, _⟩ => rfl | ⟨1, _⟩ => rfl)
  have er : ∀ k : Fin 4096, ridx_main_v5 (ix2 p q) k = ix2 k q := fun k => funext fun a => Fin.ext (by
    match a with | ⟨0, _⟩ => rfl | ⟨1, _⟩ => rfl)
  have eb : idx_main_v6 (idx_main_v7 (ix2 p q)) = ix1 q := funext fun a => Fin.ext (by
    match a with | ⟨0, _⟩ => rfl)
  simp only [el, er, eb, hid_apply, Ideal.maximumf_def, Ideal.addf_def, Ideal.ofBits_def, Ideal.ofBits_zero_f32]
  rfl

/-- The second branch is the same network on the other input array. -/
theorem v19_eq_v9 (x : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) :
    val_main_v19 (F := Ideal) x x2 x3 x4 x5 = val_main_v9 (F := Ideal) x x2 x3 x4 x5 := rfl

/-- The side-by-side array at a column below 32 is the first network's output there. -/
theorem cat_left (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (p : Fin 16384) (j : Fin 32) :
    val_main_v20 (F := Ideal) x0 x1 x2 x3 x4 x5 (ix2 p (Fin.castAdd 32 j))
      = val_main_v9 (F := Ideal) x0 x2 x3 x4 x5 (ix2 p j) := by
  unfold val_main_v20
  exact concatenate_pair_apply_left (t := S16384x64) (s₁ := S16384x32) (s₂ := S16384x32) (1 : Fin 2) _ _ _
    (ix2 p (Fin.castAdd 32 j)) rfl (ix2 p j) (fun b => by
      match b with | ⟨0, _⟩ => rfl | ⟨1, _⟩ => rfl)

/-- The side-by-side array at a column from 32 on is the second network's output at that column less 32. -/
theorem cat_right (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (p : Fin 16384) (j : Fin 32) :
    val_main_v20 (F := Ideal) x0 x1 x2 x3 x4 x5 (ix2 p (Fin.natAdd 32 j))
      = val_main_v19 (F := Ideal) x1 x2 x3 x4 x5 (ix2 p j) := by
  unfold val_main_v20
  exact concatenate_pair_apply_right (t := S16384x64) (s₁ := S16384x32) (s₂ := S16384x32) (1 : Fin 2) _ _ _
    (ix2 p (Fin.natAdd 32 j)) rfl rfl (ix2 p j) (fun b hb => by
      match b, hb with
      | ⟨0, _⟩, _ => rfl
      | ⟨1, _⟩, hb => exact absurd rfl hb) (by show j.val + 32 = 32 + j.val; omega)

/-- A sum over 64 indices is the sum over the first 32 plus the sum over the last 32. -/
theorem sum_halves (f : Fin 64 → EReal) :
    ∑ c : Fin 64, f c = ∑ j : Fin 32, f (Fin.castAdd 32 j) + ∑ j : Fin 32, f (Fin.natAdd 32 j) :=
  Fin.sum_univ_add (a := 32) (b := 32) f

/-- The third layer at an index: the specification's hidden unit on the two networks' outputs laid side by side. -/
theorem pair_apply (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (x6 : (⟨S64x4096, .f32⟩ : BufTy).Contents (Elt Ideal))
    (x7 : (⟨S4096, .f32⟩ : BufTy).Contents (Elt Ideal)) (p : Fin 16384) (k : Fin 4096) :
    val_main_v25 (F := Ideal) x0 x1 x2 x3 x4 x5 x6 x7 (ix2 p k)
      = Cert.Spec.pair (Cert.Spec.emb (fun j => x0 (ix2 p j)) x2 x3 x4 x5) (Cert.Spec.emb (fun j => x1 (ix2 p j)) x2 x3 x4 x5)
          x6 x7 k := by
  rw [val_main_v25_apply, val_main_v24_apply, val_main_v21_apply, val_main_v23_apply, val_main_v22_apply,
    val_main_call4_v0_apply, val_main_call4_cst_apply]
  have el : ∀ c : Fin 64, lidx_main_v21 (ix2 p k) c = ix2 p c := fun c => funext fun a => Fin.ext (by
    match a with | ⟨0, _⟩ => rfl | ⟨1, _⟩ => rfl)
  have er : ∀ c : Fin 64, ridx_main_v21 (ix2 p k) c = ix2 c k := fun c => funext fun a => Fin.ext (by
    match a with | ⟨0, _⟩ => rfl | ⟨1, _⟩ => rfl)
  have eb : idx_main_v22 (idx_main_v23 (ix2 p k)) = ix1 k := funext fun a => Fin.ext (by
    match a with | ⟨0, _⟩ => rfl)
  simp only [el, er, eb]
  rw [sum_halves]
  simp only [cat_left, cat_right, v19_eq_v9, emb_apply, Ideal.maximumf_def, Ideal.addf_def, Ideal.ofBits_def,
    Ideal.ofBits_zero_f32]
  rfl

/-- The reference program's result is the specification, index by index. -/
theorem ref_eq
    (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (x6 : (⟨S64x4096, .f32⟩ : BufTy).Contents (Elt Ideal))
    (x7 : (⟨S4096, .f32⟩ : BufTy).Contents (Elt Ideal)) (x8 : (⟨S4096x128, .f32⟩ : BufTy).Contents (Elt Ideal))
    (x9 : (⟨S128, .f32⟩ : BufTy).Contents (Elt Ideal)) :
    Cert.ReferenceIdeal.Read.val_main_v29 (F := Ideal) x0 x1 x2 x3 x4 x5 x6 x7 x8 x9
      = Cert.Spec.G x0 x1 x2 x3 x4 x5 x6 x7 x8 x9 := by
  funext i
  obtain ⟨p, q, rfl⟩ : ∃ (p : Fin 16384) (q : Fin 128), i = ix2 p q := ⟨i 0, i 1, eq_ix2 i⟩
  rw [val_main_v29_apply, val_main_v26_apply, val_main_v28_apply, val_main_v27_apply]
  have el : ∀ k : Fin 4096, lidx_main_v26 (ix2 p q) k = ix2 p k := fun k => funext fun a => Fin.ext (by
    match a with | ⟨0, _⟩ => rfl | ⟨1, _⟩ => rfl)
  have er : ∀ k : Fin 4096, ridx_main_v26 (ix2 p q) k = ix2 k q := fun k => funext fun a => Fin.ext (by
    match a with | ⟨0, _⟩ => rfl | ⟨1, _⟩ => rfl)
  have eb : idx_main_v27 (idx_main_v28 (ix2 p q)) = ix1 q := funext fun a => Fin.ext (by
    match a with | ⟨0, _⟩ => rfl)
  simp only [el, er, eb, pair_apply, Ideal.addf_def]
  rfl

end Cert.ReferenceIdeal.RefValue

end
-- ==== Proof.lean ====
/-
  A fused four-layer network against its plain reference, equal over the extended reals.

  Both programs compute, for each row of `state` and the same row of `next_state`,
  `relu (cat (net state) (net next_state) · W3 + b3) · W4 + b4` with `net x = relu (relu (x · W1 + b1) · W2 + b2)`
  (`Cert.Spec.G`, index by index). The reference does so with whole-array matrix products (`RefIsG`). The kernel
  works on blocks of 2048 rows, two streams of 1024 rows per block: it stacks the two inputs' rows so that each
  layer is one product, folds each first bias into its weight matrix as an extra row met by a column of ones, and
  accumulates the 4096-wide hidden dimension in sixteen slices of 256. Over the extended reals a change of float
  format is the identity, so this is the same sum regrouped: `1 * b = b`, a sum over 33 or 65 indices split into
  its parts, and a 4096-term sum cut into sixteen runs (`Steps`, `StepsEq`, `StepsAt`, `Pieces`, `Body`, over `Sums`);
  the blocks then tile the result array (`Blocks`). Only commutativity and associativity of addition are used:
  the precondition is never opened. The three frames are the generated ones, the reference's being its run with
  the result dropped; no operation was rewritten by the idealization, so there is nothing to preserve.
-/
import proofs.«151286_g11802570129985_cont_fleet_79_24_alg».proof.Defs
import proofs.«151286_g11802570129985_cont_fleet_79_24_alg».proof.Proof.Gen.Kernel
import proofs.«151286_g11802570129985_cont_fleet_79_24_alg».proof.Proof.Gen.Kernel.Skeleton
import proofs.«151286_g11802570129985_cont_fleet_79_24_alg».proof.Proof.Gen.Kernel.Launch
import proofs.«151286_g11802570129985_cont_fleet_79_24_alg».proof.Proof.Gen.Kernel.Points
import proofs.«151286_g11802570129985_cont_fleet_79_24_alg».proof.Proof.Gen.Kernel.Frame
import proofs.«151286_g11802570129985_cont_fleet_79_24_alg».proof.Proof.Gen.KernelIdeal
import proofs.«151286_g11802570129985_cont_fleet_79_24_alg».proof.Proof.Gen.KernelIdeal.Skeleton
import proofs.«151286_g11802570129985_cont_fleet_79_24_alg».proof.Proof.Gen.KernelIdeal.Launch
import proofs.«151286_g11802570129985_cont_fleet_79_24_alg».proof.Proof.Gen.KernelIdeal.Points
import proofs.«151286_g11802570129985_cont_fleet_79_24_alg».proof.Proof.Gen.KernelIdeal.Frame
import proofs.«151286_g11802570129985_cont_fleet_79_24_alg».proof.Proof.Gen.ReferenceIdeal
import proofs.«151286_g11802570129985_cont_fleet_79_24_alg».proof.Proof.Gen.Pre_finite_inputs
import proofs.«151286_g11802570129985_cont_fleet_79_24_alg».proof.Proof.Gen.KernelIdeal.Value
import proofs.«151286_g11802570129985_cont_fleet_79_24_alg».proof.Proof.Gen.ReferenceIdeal.Run
import proofs.«151286_g11802570129985_cont_fleet_79_24_alg».proof.Proof.Gen.ReferenceIdeal.Read
import proofs.«151286_g11802570129985_cont_fleet_79_24_alg».proof.Proof.Body
import proofs.«151286_g11802570129985_cont_fleet_79_24_alg».proof.Proof.Blocks
import proofs.«151286_g11802570129985_cont_fleet_79_24_alg».proof.Proof.RefIsG
import Idealize.ShloMosaic.Adequacy
import Idealize.ShloMosaic.Init

noncomputable section

namespace Cert.Proof

open Idealize.ShloMosaic Idealize.SL.Sem

/-- The kernel's frame, as generated. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame, as generated. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with `Cert.Spec.G` of the arguments in their result arrays: the kernel by its body's
    value and the tiling of the result by the grid's blocks, the reference by its operations read one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Blocks.run m Cert.KernelIdeal.Body.body_at ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
